-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S_ : Shape := ⟨0, ![]⟩
abbrev S8x128x3 : Shape := ⟨3, ![8, 128, 3]⟩
abbrev S8x4224x3 : Shape := ⟨3, ![8, 4224, 3]⟩
abbrev S8x4224x1 : Shape := ⟨3, ![8, 4224, 1]⟩
abbrev S8x1x4224 : Shape := ⟨3, ![8, 1, 4224]⟩
abbrev S1x1408x3 : Shape := ⟨3, ![1, 1408, 3]⟩
abbrev S1x4224x1 : Shape := ⟨3, ![1, 4224, 1]⟩
abbrev S1x1x4224 : Shape := ⟨3, ![1, 1, 4224]⟩
abbrev S4224x1 : Shape := ⟨2, ![4224, 1]⟩
abbrev S1x4224 : Shape := ⟨2, ![1, 4224]⟩
abbrev S1408x3 : Shape := ⟨2, ![1408, 3]⟩
abbrev S3x1408 : Shape := ⟨2, ![3, 1408]⟩
abbrev S1408 : Shape := ⟨1, ![1408]⟩
abbrev S1408x1 : Shape := ⟨2, ![1408, 1]⟩
abbrev S1x1408 : Shape := ⟨2, ![1, 1408]⟩
abbrev S1408x1408 : Shape := ⟨2, ![1408, 1408]⟩
abbrev S8x4224 : Shape := ⟨2, ![8, 4224]⟩
abbrev S8 : Shape := ⟨1, ![8]⟩
abbrev S1x8 : Shape := ⟨2, ![1, 8]⟩
abbrev S1 : Shape := ⟨1, ![1]⟩

abbrev nBuf : Space → Nat
  | .hbm => 46
  | .vmem => 10
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S_, .f32⟩
  | .hbm, ⟨3, _⟩ => ⟨S8x128x3, .f32⟩
  | .hbm, ⟨4, _⟩ => ⟨S_, .f32⟩
  | .hbm, ⟨5, _⟩ => ⟨S8x128x3, .f32⟩
  | .hbm, ⟨6, _⟩ => ⟨S8x4224x3, .f32⟩
  | .hbm, ⟨7, _⟩ => ⟨S8x4224x3, .f32⟩
  | .hbm, ⟨8, _⟩ => ⟨S8x4224x1, .f32⟩
  | .hbm, ⟨9, _⟩ => ⟨S8x1x4224, .f32⟩
  | .hbm, ⟨10, _⟩ => ⟨S8x4224, .f32⟩
  | .hbm, ⟨11, _⟩ => ⟨S8x4224, .f32⟩
  | .hbm, ⟨12, _⟩ => ⟨S_, .f32⟩
  | .hbm, ⟨13, _⟩ => ⟨S8x4224, .f32⟩
  | .hbm, ⟨14, _⟩ => ⟨S8x4224, .i1⟩
  | .hbm, ⟨15, _⟩ => ⟨S8x4224, .i32⟩
  | .hbm, ⟨16, _⟩ => ⟨S_, .i32⟩
  | .hbm, ⟨17, _⟩ => ⟨S8, .i32⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S_, .f32⟩
  | .hbm, ⟨22, _⟩ => ⟨S8x4224, .f32⟩
  | .hbm, ⟨23, _⟩ => ⟨S8x4224, .i1⟩
  | .hbm, ⟨24, _⟩ => ⟨S8x4224, .i32⟩
  | .hbm, ⟨25, _⟩ => ⟨S_, .i32⟩
  | .hbm, ⟨26, _⟩ => ⟨S8, .i32⟩
  | .hbm, ⟨27, _⟩ => ⟨S_, .i32⟩
  | .hbm, ⟨28, _⟩ => ⟨S8, .i32⟩
  | .hbm, ⟨29, _⟩ => ⟨S8, .i32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S8, .f32⟩
  | .hbm, ⟨38, _⟩ => ⟨S8, .f32⟩
  | .hbm, ⟨39, _⟩ => ⟨S1x8, .f32⟩
  | .hbm, ⟨40, _⟩ => ⟨S_, .f32⟩
  | .hbm, ⟨41, _⟩ => ⟨S1, .f32⟩
  | .hbm, ⟨42, _⟩ => ⟨S_, .f32⟩
  | .hbm, ⟨43, _⟩ => ⟨S1, .f32⟩
  | .hbm, ⟨44, _⟩ => ⟨S1, .f32⟩
  | .hbm, ⟨45, _⟩ => ⟨S_, .f32⟩
  | .local _ .vmem, ⟨0, _⟩ => ⟨S1x1408x3, .f32⟩
  | .local _ .vmem, ⟨1, _⟩ => ⟨S1x1408x3, .f32⟩
  | .local _ .vmem, ⟨2, _⟩ => ⟨S1x1408x3, .f32⟩
  | .local _ .vmem, ⟨3, _⟩ => ⟨S1x1408x3, .f32⟩
  | .local _ .vmem, ⟨4, _⟩ => ⟨S1x4224x1, .f32⟩
  | .local _ .vmem, ⟨5, _⟩ => ⟨S1x4224x1, .f32⟩
  | .local _ .vmem, ⟨6, _⟩ => ⟨S1x1x4224, .f32⟩
  | .local _ .vmem, ⟨7, _⟩ => ⟨S1x1x4224, .f32⟩
  | .local _ .vmem, ⟨8, _⟩ => ⟨S4224x1, .f32⟩
  | .local _ .vmem, ⟨9, _⟩ => ⟨S1x4224, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_c_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 3, 3], ![false, false, false]⟩

def k0_mult1 (i : grid0.Coords) : BitVec 32 :=
  let arg1 : BitVec 32 := BitVec.ofNat 32 (i 1).val
  let c1408_i32 : BitVec 32 := 1408#32
  let v45 : BitVec 32 := Scalar.muli arg1 c1408_i32
  v45
def k0_mult2 (i : grid0.Coords) : BitVec 32 :=
  let arg2 : BitVec 32 := BitVec.ofNat 32 (i 2).val
  let c1408_i32_12 : BitVec 32 := 1408#32
  let v47 : BitVec 32 := Scalar.muli arg2 c1408_i32_12
  v47
def k0_off1 (i : grid0.Coords) : Fin 2 → Nat :=
  let arg1 : BitVec 32 := BitVec.ofNat 32 (i 1).val
  let c1408_i32 : BitVec 32 := 1408#32
  let v45 : BitVec 32 := Scalar.muli arg1 c1408_i32
  let v46 : BitVec 32 := v45
  let v49 : Index := Scalar.indexCast v46
  let c0_13 : Index := 0#32
  ![v49.toNat, 0]
def k0_off2 (i : grid0.Coords) : Fin 2 → Nat :=
  let c0_15 : Index := 0#32
  let arg2 : BitVec 32 := BitVec.ofNat 32 (i 2).val
  let c1408_i32_12 : BitVec 32 := 1408#32
  let v47 : BitVec 32 := Scalar.muli arg2 c1408_i32_12
  let v48 : BitVec 32 := v47
  let v56 : Index := Scalar.indexCast v48
  ![0, v56.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1408x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1408x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x4224x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x4224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  bcast_S_S8x128x3 : S_.BroadcastsInDim S8x128x3 (![] : Fin 0 → Fin S8x128x3.rank)
  concatenates_S8x4096x3_S8x128x3_S8x4224x3_d1 : Shape.Concatenates [S8x4096x3, S8x128x3] S8x4224x3 1
  inb_S4224x1_S4224x1_0_0 : ∀ a, (![0, 0] : Fin 2 → Nat) a + S4224x1.size a ≤ S4224x1.size a
  h_S4224x1 : 0 < S4224x1.numel
  shapeCasts_S4224x1_S4224x1 : S4224x1.ShapeCasts S4224x1
  inb_S1x4224_S1x4224_0_0 : ∀ a, (![0, 0] : Fin 2 → Nat) a + S1x4224.size a ≤ S1x4224.size a
  h_S1x4224 : 0 < S1x4224.numel
  shapeCasts_S1x4224_S1x4224 : S1x4224.ShapeCasts S1x4224
  inb_S1x1408x3_S1x1408x3_0_0_0 : ∀ a, (![0, 0, 0] : Fin 3 → Nat) a + S1x1408x3.size a ≤ S1x1408x3.size a
  h_S1x1408x3 : 0 < S1x1408x3.numel
  shapeCasts_S1x1408x3_S1408x3 : S1x1408x3.ShapeCasts S1408x3
  transposes_S1408x3_p1_0_S3x1408 : S1408x3.Transposes [1, 0] S3x1408
  reduces_S1408x3_S1408 : S1408x3.Reduces [1] S1408
  shapeCasts_S1408_S1408x1 : S1408.ShapeCasts S1408x1
  reduces_S3x1408_S1408 : S3x1408.Reduces [0] S1408
  shapeCasts_S1408_S1x1408 : S1408.ShapeCasts S1x1408
  slices_S1408x3_o0_0_S1408x1 : S1408x3.Slices ![0, 0] S1408x1
  slices_S3x1408_o0_0_S1x1408 : S3x1408.Slices ![0, 0] S1x1408
  broadcasts_S1408x1_S1408x1408 : S1408x1.Broadcasts S1408x1408
  broadcasts_S1x1408_S1408x1408 : S1x1408.Broadcasts S1408x1408
  slices_S1408x3_o0_1_S1408x1 : S1408x3.Slices ![0, 1] S1408x1
  slices_S3x1408_o1_0_S1x1408 : S3x1408.Slices ![1, 0] S1x1408
  slices_S1408x3_o0_2_S1408x1 : S1408x3.Slices ![0, 2] S1408x1
  slices_S3x1408_o2_0_S1x1408 : S3x1408.Slices ![2, 0] S1x1408
  reduces_S1408x1408_S1408 : S1408x1408.Reduces [1] S1408
  reduces_S1408x1408_S1408_2 : S1408x1408.Reduces [0] S1408
  h_S1408x1 : 0 < S1408x1.numel
  shapeCasts_S1408x1_S1408x1 : S1408x1.ShapeCasts S1408x1
  h_S1x1408 : 0 < S1x1408.numel
  shapeCasts_S1x1408_S1x1408 : S1x1408.ShapeCasts S1x1408
  inb_S1x4224x1_S1x4224x1_0_0_0 : ∀ a, (![0, 0, 0] : Fin 3 → Nat) a + S1x4224x1.size a ≤ S1x4224x1.size a
  h_S1x4224x1 : 0 < S1x4224x1.numel
  shapeCasts_S1x4224x1_S4224x1 : S1x4224x1.ShapeCasts S4224x1
  shapeCasts_S4224x1_S1x4224x1 : S4224x1.ShapeCasts S1x4224x1
  inb_S1x1x4224_S1x1x4224_0_0_0 : ∀ a, (![0, 0, 0] : Fin 3 → Nat) a + S1x1x4224.size a ≤ S1x1x4224.size a
  h_S1x1x4224 : 0 < S1x1x4224.numel
  shapeCasts_S1x1x4224_S1x4224 : S1x1x4224.ShapeCasts S1x4224
  shapeCasts_S1x4224_S1x1x4224 : S1x4224.ShapeCasts S1x1x4224
  shapeCasts_S8x4224x1_S8x4224 : S8x4224x1.ShapeCasts S8x4224
  shapeCasts_S8x1x4224_S8x4224 : S8x1x4224.ShapeCasts S8x4224
  bcast_S_S8x4224 : S_.BroadcastsInDim S8x4224 (![] : Fin 0 → Fin S8x4224.rank)
  natLt_1_32 : 1 < 32
  reducesTo_S8x4224_S8_d1 : S8x4224.ReducesTo [1] S8
  h_S_ : 0 < S_.numel
  bcast_S_S8 : S_.BroadcastsInDim S8 (![] : Fin 0 → Fin S8.rank)
  shapeCasts_S8_S1x8 : S8.ShapeCasts S1x8
  reducesTo_S1x8_S1_d1 : S1x8.ReducesTo [1] S1
  bcast_S_S1 : S_.BroadcastsInDim S1 (![] : Fin 0 → Fin S1.rank)
  shapeCasts_S1_S_ : S1.ShapeCasts S_
  hrank0 : 0 < grid0.rank
  k0_mult1_dvd : ∀ i : grid0.Coords, 1408 ∣ (k0_mult1 i).toNat
  k0_mult2_dvd : ∀ i : grid0.Coords, 1408 ∣ (k0_mult2 i).toNat
  k0_off1_inb : ∀ i : grid0.Coords, ∀ a, (k0_off1 i) a + S1408x1.size a ≤ S4224x1.size a
  k0_off2_inb : ∀ i : grid0.Coords, ∀ a, (k0_off2 i) a + S1x1408.size a ≤ S1x4224.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1408x3.size a ≤ S8x4224x3.size a
  hwx0_0 : ∀ i : grid0.Coords, EltTy.bits .f32 = 32 ∨ (Rect.block (s := S8x4224x3) S1x1408x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1408x3.size a ≤ S8x4224x3.size a
  hwx0_1 : ∀ i : grid0.Coords, EltTy.bits .f32 = 32 ∨ (Rect.block (s := S8x4224x3) S1x1408x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4224x1.size a ≤ S8x4224x1.size a
  hwx0_2 : ∀ i : grid0.Coords, EltTy.bits .f32 = 32 ∨ (Rect.block (s := S8x4224x1) S1x4224x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4224.size a ≤ S8x1x4224.size a
  hwx0_3 : ∀ i : grid0.Coords, EltTy.bits .f32 = 32 ∨ (Rect.block (s := S8x1x4224) S1x1x4224.size (cc0_transform_3 i) (hinb0_3 i)).WholeWords (EltTy.packing .f32)

variable [Facts₀]

abbrev win0_0 : Pipeline.Window sig grid0 :=
  Pipeline.Window.ofSpec (Memref.whole main_v2) S1x1408x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1408x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1x4224x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x1x4224.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x3 : Shape := ⟨3, ![8, 4096, 3]⟩
abbrev S_ : Shape := ⟨0, ![]⟩
abbrev S8x1x3 : Shape := ⟨3, ![8, 1, 3]⟩
abbrev S8x4097x3 : Shape := ⟨3, ![8, 4097, 3]⟩
abbrev S8x4097 : Shape := ⟨2, ![8, 4097]⟩
abbrev S8x4097x4097 : Shape := ⟨3, ![8, 4097, 4097]⟩
abbrev S8x4097x1 : Shape := ⟨3, ![8, 4097, 1]⟩
abbrev S8x1x4097 : Shape := ⟨3, ![8, 1, 4097]⟩
abbrev S8 : Shape := ⟨1, ![8]⟩
abbrev S1x8 : Shape := ⟨2, ![1, 8]⟩
abbrev S1 : Shape := ⟨1, ![1]⟩

abbrev nBuf : Space → Nat
  | .hbm => 63
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S_, .f32⟩
  | .hbm, ⟨3, _⟩ => ⟨S8x1x3, .f32⟩
  | .hbm, ⟨4, _⟩ => ⟨S8x4097x3, .f32⟩
  | .hbm, ⟨5, _⟩ => ⟨S8x4097x3, .f32⟩
  | .hbm, ⟨6, _⟩ => ⟨S8x4097x3, .f32⟩
  | .hbm, ⟨7, _⟩ => ⟨S_, .f32⟩
  | .hbm, ⟨8, _⟩ => ⟨S8x4097, .f32⟩
  | .hbm, ⟨9, _⟩ => ⟨S8x4097x3, .f32⟩
  | .hbm, ⟨10, _⟩ => ⟨S_, .f32⟩
  | .hbm, ⟨11, _⟩ => ⟨S8x4097, .f32⟩
  | .hbm, ⟨12, _⟩ => ⟨S8x4097x4097, .f32⟩
  | .hbm, ⟨13, _⟩ => ⟨S8x4097x1, .f32⟩
  | .hbm, ⟨14, _⟩ => ⟨S8x1x4097, .f32⟩
  | .hbm, ⟨15, _⟩ => ⟨S8x4097x4097, .f32⟩
  | .hbm, ⟨16, _⟩ => ⟨S8x4097x4097, .f32⟩
  | .hbm, ⟨17, _⟩ => ⟨S8x4097x4097, .f32⟩
  | .hbm, ⟨18, _⟩ => ⟨S_, .f32⟩
  | .hbm, ⟨19, _⟩ => ⟨S8x4097x4097, .f32⟩
  | .hbm, ⟨20, _⟩ => ⟨S8x4097x4097, .f32⟩
  | .hbm, ⟨21, _⟩ => ⟨S8x4097x4097, .f32⟩
  | .hbm, ⟨22, _⟩ => ⟨S_, .f32⟩
  | .hbm, ⟨23, _⟩ => ⟨S8x4097x4097, .f32⟩
  | .hbm, ⟨24, _⟩ => ⟨S8x4097x4097, .f32⟩
  | .hbm, ⟨25, _⟩ => ⟨S_, .f32⟩
  | .hbm, ⟨26, _⟩ => ⟨S8x4097, .f32⟩
  | .hbm, ⟨27, _⟩ => ⟨S_, .f32⟩
  | .hbm, ⟨28, _⟩ => ⟨S8x4097, .f32⟩
  | .hbm, ⟨29, _⟩ => ⟨S_, .f32⟩
  | .hbm, ⟨30, _⟩ => ⟨S8x4097, .f32⟩
  | .hbm, ⟨31, _⟩ => ⟨S8x4097, .i1⟩
  | .hbm, ⟨32, _⟩ => ⟨S8x4097, .i32⟩
  | .hbm, ⟨33, _⟩ => ⟨S_, .i32⟩
  | .hbm, ⟨34, _⟩ => ⟨S8, .i32⟩
  | .hbm, ⟨35, _⟩ => ⟨S_, .i32⟩
  | .hbm, ⟨36, _⟩ => ⟨S8, .i32⟩
  | .hbm, ⟨37, _⟩ => ⟨S8, .i32⟩
  | .hbm, ⟨38, _⟩ => ⟨S_, .f32⟩
  | .hbm, ⟨39, _⟩ => ⟨S8x4097, .f32⟩
  | .hbm, ⟨40, _⟩ => ⟨S8x4097, .i1⟩
  | .hbm, ⟨41, _⟩ => ⟨S8x4097, .i32⟩
  | .hbm, ⟨42, _⟩ => ⟨S_, .i32⟩
  | .hbm, ⟨43, _⟩ => ⟨S8, .i32⟩
  | .hbm, ⟨44, _⟩ => ⟨S_, .i32⟩
  | .hbm, ⟨45, _⟩ => ⟨S8, .i32⟩
  | .hbm, ⟨46, _⟩ => ⟨S8, .i32⟩
  | .hbm, ⟨47, _⟩ => ⟨S_, .f32⟩
  | .hbm, ⟨48, _⟩ => ⟨S8, .f32⟩
  | .hbm, ⟨49, _⟩ => ⟨S8, .f32⟩
  | .hbm, ⟨50, _⟩ => ⟨S8, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S8, .f32⟩
  | .hbm, ⟨55, _⟩ => ⟨S8, .f32⟩
  | .hbm, ⟨56, _⟩ => ⟨S1x8, .f32⟩
  | .hbm, ⟨57, _⟩ => ⟨S_, .f32⟩
  | .hbm, ⟨58, _⟩ => ⟨S1, .f32⟩
  | .hbm, ⟨59, _⟩ => ⟨S_, .f32⟩
  | .hbm, ⟨60, _⟩ => ⟨S1, .f32⟩
  | .hbm, ⟨61, _⟩ => ⟨S1, .f32⟩
  | .hbm, ⟨62, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_c_7 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_9 : Ref sig .tc := ⟨.hbm, 42, rfl⟩
abbrev main_v29 : Ref sig .tc := ⟨.hbm, 43, rfl⟩
abbrev main_c_10 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_12 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_cst_14 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]

class Facts₀ : Prop where
  bcast_S_S8x1x3 : S_.BroadcastsInDim S8x1x3 (![] : Fin 0 → Fin S8x1x3.rank)
  concatenates_S8x4096x3_S8x1x3_S8x4097x3_d1 : Shape.Concatenates [S8x4096x3, S8x1x3] S8x4097x3 1
  reducesTo_S8x4097x3_S8x4097_d2 : S8x4097x3.ReducesTo [2] S8x4097
  h_S_ : 0 < S_.numel
  bcast_S8x4097_S8x4097x1_0_1 : S8x4097.BroadcastsInDim S8x4097x1 (![0, 1] : Fin 2 → Fin S8x4097x1.rank)
  bcast_S8x4097_S8x1x4097_0_2 : S8x4097.BroadcastsInDim S8x1x4097 (![0, 2] : Fin 2 → Fin S8x1x4097.rank)
  bcast_S8x4097x1_S8x4097x4097_0_1_2 : S8x4097x1.BroadcastsInDim S8x4097x4097 (![0, 1, 2] : Fin 3 → Fin S8x4097x4097.rank)
  bcast_S8x1x4097_S8x4097x4097_0_1_2 : S8x1x4097.BroadcastsInDim S8x4097x4097 (![0, 1, 2] : Fin 3 → Fin S8x4097x4097.rank)
  bcast_S_S8x4097x4097 : S_.BroadcastsInDim S8x4097x4097 (![] : Fin 0 → Fin S8x4097x4097.rank)
  reducesTo_S8x4097x4097_S8x4097_d2 : S8x4097x4097.ReducesTo [2] S8x4097
  reducesTo_S8x4097x4097_S8x4097_d1 : S8x4097x4097.ReducesTo [1] S8x4097
  bcast_S_S8x4097 : S_.BroadcastsInDim S8x4097 (![] : Fin 0 → Fin S8x4097.rank)
  natLt_1_32 : 1 < 32
  reducesTo_S8x4097_S8_d1 : S8x4097.ReducesTo [1] S8
  bcast_S_S8 : S_.BroadcastsInDim S8 (![] : Fin 0 → Fin S8.rank)
  shapeCasts_S8_S1x8 : S8.ShapeCasts S1x8
  reducesTo_S1x8_S1_d1 : S1x8.ReducesTo [1] S1
  bcast_S_S1 : S_.BroadcastsInDim S1 (![] : Fin 0 → Fin S1.rank)
  shapeCasts_S1_S_ : S1.ShapeCasts S_
  dot_S8x4097x3_S8x4097x3_S8x4097x4097_2_2_1_1_0_0_wf : DotDims.WF S8x4097x3 S8x4097x3 S8x4097x4097 [2] [2] [1] [1] [0] [0]

variable [Facts₀]

def dot_S8x4097x3_S8x4097x3_S8x4097x4097_2_2_1_1_0_0 : DotDims S8x4097x3 S8x4097x3 S8x4097x4097 where
  lhsContracting := [2]
  rhsContracting := [2]
  lhsNonContracting := [1]
  rhsNonContracting := [1]
  lhsBatch := [0]
  rhsBatch := [0]
  wf := dot_S8x4097x3_S8x4097x3_S8x4097x4097_2_2_1_1_0_0_wf

class Facts : Prop extends Facts₀ where

variable [Facts]
-- ==== Proof.ChamferSpec.lean ====
/-
  The mathematics of the Chamfer nearest-neighbour distances, on the extended reals, free of any program.
  A cloud of 4096 points of three coordinates is padded by copies of one far point; the squared distance of two
  points is the clipped expansion |u|² + |v|² − 2·⟨u, v⟩; the row minimum of a padded cloud of any size K ≥ 4097
  is, at a true point, its distance to the nearest true point or the pad point, and at a pad row exactly zero
  (the pad point's distance to itself, every other distance being nonnegative). So the padded minima do not
  depend on how many copies of the pad point were appended.
-/
import Idealize.ShloMosaic.PureOps.Ideal
import Idealize.ShloMosaic.PureOps.Ideal.Laws

noncomputable section

open scoped BigOperators

namespace Cert.Chamfer

open Idealize.ShloMosaic

/-- The pad coordinate (the pattern of 1000.0) as the extended real it denotes. -/
def pad : EReal := Ideal.ofBits .f32 0x447A0000#32
/-- The factor of the cross term (the pattern of 2.0). -/
def two : EReal := Ideal.ofBits .f32 0x40000000#32

/-- The pattern of +∞ denotes the top element. -/
theorem ofBits_inf : Ideal.ofBits .f32 0x7F800000#32 = (⊤ : EReal) := by
  simp [Ideal.ofBits, Ideal.ieee]

/-- The pad pattern has exponent field 136 and fraction field 7995392, so it denotes
    (2²³ + 7995392) · 2^(136 − 127 − 23) = 16384000 / 16384 = 1000. -/
theorem pad_eq : pad = ((1000 : ℝ) : EReal) := by
  unfold pad
  simp [Ideal.ofBits, Ideal.ieee, -EReal.coe_mul]; norm_num

/-- The factor's pattern has exponent field 128 and fraction field 0, so it denotes 2²³ · 2^(128 − 127 − 23) = 2. -/
theorem two_eq : two = ((2 : ℝ) : EReal) := by
  unfold two
  simp [Ideal.ofBits, Ideal.ieee, -EReal.coe_mul]; norm_num

/-- The squared norm of a point, as the sum of its squared coordinates. -/
def sq (u : Fin 3 → EReal) : EReal := ∑ k : Fin 3, u k * u k
/-- The inner product of two points. -/
def dot (u v : Fin 3 → EReal) : EReal := ∑ k : Fin 3, u k * v k
/-- The clipped squared distance |u|² + |v|² − 2⟨u, v⟩, never below zero. -/
def d2 (u v : Fin 3 → EReal) : EReal := max ((sq u + sq v) - two * dot u v) 0
/-- The pad point: every coordinate the pad value. -/
def padPt : Fin 3 → EReal := fun _ => pad

theorem d2_nonneg (u v : Fin 3 → EReal) : 0 ≤ d2 u v := le_max_right _ _

/-- The pad point is at distance exactly zero from itself: with a = 3·1000², (a + a) − 2·a = 0 over the reals. -/
theorem d2_pad_pad : d2 padPt padPt = 0 := by
  -- |pad point|² = 1000² + 1000² + 1000² = 3000000, a finite real; the inner product with itself is the same sum
  have hsq : sq padPt = ((3000000 : ℝ) : EReal) := by
    simp only [sq, padPt, Fin.sum_univ_three, pad_eq, ← EReal.coe_mul, ← EReal.coe_add]
    norm_num
  have hdot : dot padPt padPt = ((3000000 : ℝ) : EReal) := hsq
  -- (3000000 + 3000000) − 2 · 3000000 = 0 in ℝ, and max 0 0 = 0
  rw [d2, hsq, hdot, two_eq, ← EReal.coe_add, ← EReal.coe_mul, ← EReal.coe_sub]
  norm_num

/-- A cloud of 4096 points padded to K points by copies of the pad point. -/
def padTo (K : ℕ) (x : Fin 4096 → Fin 3 → EReal) (n : Fin K) : Fin 3 → EReal :=
  if h : n.val < 4096 then x ⟨n.val, h⟩ else padPt

/-- At an index below 4096 the padded cloud is the cloud itself. -/
theorem padTo_lt (K : ℕ) (x : Fin 4096 → Fin 3 → EReal) (n : Fin K) (h : n.val < 4096) :
    padTo K x n = x ⟨n.val, h⟩ := dif_pos h

/-- At an index from 4096 on the padded cloud is the pad point. -/
theorem padTo_ge (K : ℕ) (x : Fin 4096 → Fin 3 → EReal) (n : Fin K) (h : ¬ n.val < 4096) :
    padTo K x n = padPt := dif_neg h

/-- Folding `min` from `⊤` over a finite set is the set's infimum. -/
theorem fold_min_eq_inf {ι : Type*} (s : Finset ι) (f : ι → EReal) :
    s.fold min ⊤ f = s.inf f := rfl

/-- The infimum of any function of the point over a padded cloud of K ≥ 4097 points is the lesser of its
    infimum over the 4096 true points and its value at the pad point: the indices below 4096 are exactly the
    true points, every index from 4096 on carries the pad point, and the index 4096 exists. -/
theorem inf_padTo (K : ℕ) (hK : 4097 ≤ K) (y : Fin 4096 → Fin 3 → EReal) (g : (Fin 3 → EReal) → EReal) :
    (Finset.univ : Finset (Fin K)).inf (fun m => g (padTo K y m)) =
      min ((Finset.univ : Finset (Fin 4096)).inf (fun m => g (y m))) (g padPt) := by
  have hK' : 4096 ≤ K := by omega
  apply le_antisymm
  · apply le_min
    · apply Finset.le_inf
      intro m _
      have hm : (Fin.castLE hK' m).val < 4096 := m.isLt
      have hle := Finset.inf_le (f := fun m => g (padTo K y m)) (Finset.mem_univ (Fin.castLE hK' m))
      have hval : padTo K y (Fin.castLE hK' m) = y m := padTo_lt K y _ hm
      simpa only [hval] using hle
    · have h0 : ¬ ((⟨4096, by omega⟩ : Fin K)).val < 4096 := Nat.lt_irrefl 4096
      have hle := Finset.inf_le (f := fun m => g (padTo K y m)) (Finset.mem_univ (⟨4096, by omega⟩ : Fin K))
      simpa only [padTo_ge K y _ h0] using hle
  · apply Finset.le_inf
    intro m _
    by_cases h : m.val < 4096
    · rw [padTo_lt K y m h]
      exact (min_le_left _ _).trans (Finset.inf_le (Finset.mem_univ _))
    · rw [padTo_ge K y m h]
      exact min_le_right _ _

/-- Row n's least distance to the points of the other padded cloud. -/
def rowMin (K : ℕ) (x y : Fin 4096 → Fin 3 → EReal) (n : Fin K) : EReal :=
  (Finset.univ : Finset (Fin K)).fold min ⊤ (fun m => d2 (padTo K x n) (padTo K y m))
/-- Column m's least distance to the points of the first padded cloud. -/
def colMin (K : ℕ) (x y : Fin 4096 → Fin 3 → EReal) (m : Fin K) : EReal :=
  (Finset.univ : Finset (Fin K)).fold min ⊤ (fun n => d2 (padTo K x n) (padTo K y m))

/-- A true point's least distance to the other cloud's true points or the pad point. -/
def nn1 (x y : Fin 4096 → Fin 3 → EReal) (n : Fin 4096) : EReal :=
  min ((Finset.univ : Finset (Fin 4096)).fold min ⊤ (fun m => d2 (x n) (y m))) (d2 (x n) padPt)
/-- The same from the second cloud's side. -/
def nn2 (x y : Fin 4096 → Fin 3 → EReal) (m : Fin 4096) : EReal :=
  min ((Finset.univ : Finset (Fin 4096)).fold min ⊤ (fun n => d2 (x n) (y m))) (d2 padPt (y m))

/-- The padded row minimum does not depend on the number of pad copies: the true rows see the true points and the
    pad point, the pad rows are exactly zero. -/
theorem rowMin_eq (K : ℕ) (hK : 4097 ≤ K) (x y : Fin 4096 → Fin 3 → EReal) (n : Fin K) :
    rowMin K x y n = if h : n.val < 4096 then nn1 x y ⟨n.val, h⟩ else 0 := by
  unfold rowMin
  rw [fold_min_eq_inf]
  by_cases h : n.val < 4096
  · -- a true row: the columns are the true points and copies of the pad point
    rw [dif_pos h, padTo_lt K x n h, nn1, fold_min_eq_inf]
    exact inf_padTo K hK y (fun v => d2 (x ⟨n.val, h⟩) v)
  · -- a pad row: the lesser of a nonnegative infimum and the pad point's distance to itself, which is zero
    rw [dif_neg h, padTo_ge K x n h, inf_padTo K hK y (fun v => d2 padPt v), d2_pad_pad]
    exact min_eq_right (Finset.le_inf fun m _ => d2_nonneg _ _)

theorem colMin_eq (K : ℕ) (hK : 4097 ≤ K) (x y : Fin 4096 → Fin 3 → EReal) (m : Fin K) :
    colMin K x y m = if h : m.val < 4096 then nn2 x y ⟨m.val, h⟩ else 0 := by
  unfold colMin
  rw [fold_min_eq_inf]
  by_cases h : m.val < 4096
  · -- a true column: the rows are the true points and copies of the pad point
    rw [dif_pos h, padTo_lt K y m h, nn2, fold_min_eq_inf]
    exact inf_padTo K hK x (fun u => d2 u (y ⟨m.val, h⟩))
  · -- a pad column: the lesser of a nonnegative infimum and the pad point's distance to itself, which is zero
    rw [dif_neg h, padTo_ge K y m h, inf_padTo K hK x (fun u => d2 u padPt), d2_pad_pad]
    exact min_eq_right (Finset.le_inf fun n _ => d2_nonneg _ _)

end Cert.Chamfer

end
-- ==== Proof.KernelPayload.lean ====
/-
  The kernel body's arithmetic read at an index, on the extended reals: from two blocks of 1408 points the body
  forms the 1408 × 1408 table of clipped squared distances (the squared norms as lane sums of three squares, the
  inner product as the sum of the three coordinate products), its row minima and its column minima, lowers a
  stretch of each running-minimum scratch by them, and copies the scratch to the output block.

  First the layouts and reductions of a matrix read at an index written by coordinates, generic in the extents: a
  vector as a column and a column spread over the rows keep their entries; a sum or a minimum taken along one axis
  of a matrix runs over the coordinates of that axis, the other coordinate held. Then the eight values of the body.
-/
import proofs.«163228_j67577015435957_1_alg».proof.Proof.Gen.KernelIdeal.Skeleton
import proofs.«163228_j67577015435957_1_alg».proof.Proof.ChamferSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayloadAt

open Idealize.ShloMosaic Idealize.ShloMosaic.ValueIdx Cert.KernelIdeal Cert.KernelIdeal.Gen Cert.Chamfer

/-! ## Layouts and one-axis reductions of a matrix, read at an index -/

section General
variable {α : Type}

/-- A vector [a] cast to a column [a, 1] reads, at (p, u), the vector at p: both row-major positions are p. -/
theorem castCol_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    rw [Shape.rowMajor_val_two, Shape.rowMajor_val_one]
    show p.val = p.val * 1 + u.val
    omega)

/-- A column [a, 1] broadcast to [a, b] reads, at (p, c), the column's entry of row p. -/
theorem bcastCol_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over row p of a matrix, a reduction along the columns inserts coordinate k at (p, k). -/
theorem liftRow {a b : ℕ} (h : (⟨2, ![a, b]⟩ : Shape).Reduces [1] ⟨1, ![a]⟩) (p : Fin a) (k : Fin b) :
    h.lift (ix1 p) k = ix2 p k :=
  funext fun c => Fin.ext (match c with | ⟨0, _⟩ => rfl | ⟨1, _⟩ => rfl)

/-- Over column q of a matrix, a reduction along the rows inserts coordinate k at (k, q). -/
theorem liftCol {a b : ℕ} (h : (⟨2, ![a, b]⟩ : Shape).Reduces [0] ⟨1, ![b]⟩) (q : Fin b) (k : Fin a) :
    h.lift (ix1 q) k = ix2 k q :=
  funext fun c => Fin.ext (match c with | ⟨0, _⟩ => rfl | ⟨1, _⟩ => rfl)

/-- A float sum of a matrix along its columns, at row p, is the sum of that row's entries. -/
theorem sumRow_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (liftRow h p k))

/-- A float sum of a matrix along its rows, at column q, is the sum of that column's entries. -/
theorem sumCol_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (q : Fin b) :
    multiReduction .add [0] ⟨1, ![b]⟩ src 0x00000000#32 h hφ hacc (ix1 q) = ∑ k : Fin a, src (ix2 k q) :=
  (Ideal.multiReduction_add_single src _ h hφ hacc (ix1 q)).trans
    (Finset.sum_congr rfl fun k _ => congrArg src (liftCol h q k))

/-- A float minimum over one axis, on the extended reals: the fold of min, from the accumulator's value, over that
    axis's coordinates. The indices that drop to j are the images of the coordinates under the insertion at j. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A float minimum of a matrix along its columns from +∞, at row p: the least entry of that row, from ⊤. -/
theorem minRow_apply {a b : ℕ} (src : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (p : Fin a) :
    multiReduction .minimumf [1] ⟨1, ![a]⟩ src 0x7F800000#32 h hφ hacc (ix1 p)
      = (Finset.univ : Finset (Fin b)).fold min ⊤ (fun k => src (ix2 p k)) := by
  refine (multiReduction_minimumf_single src _ h hφ hacc (ix1 p)).trans ?_
  rw [ofBits_inf]
  exact congrArg (fun g : Fin b → EReal => (Finset.univ : Finset (Fin b)).fold min ⊤ g)
    (funext fun k => congrArg src (liftRow h p k))

/-- A float minimum of a matrix along its rows from +∞, at column q: the least entry of that column, from ⊤. -/
theorem minCol_apply {a b : ℕ} (src : FVec Ideal ⟨2, ![a, b]⟩ .f32) (h : (⟨2, ![a, b]⟩ : Shape).Reduces [0] ⟨1, ![b]⟩)
    (hφ : FKind.Formats .f32) (hacc : (0x7F800000#32 : BitVec 32) = FKind.minimumf.neutral .f32 hφ) (q : Fin b) :
    multiReduction .minimumf [0] ⟨1, ![b]⟩ src 0x7F800000#32 h hφ hacc (ix1 q)
      = (Finset.univ : Finset (Fin a)).fold min ⊤ (fun k => src (ix2 k q)) := by
  refine (multiReduction_minimumf_single src _ h hφ hacc (ix1 q)).trans ?_
  rw [ofBits_inf]
  exact congrArg (fun g : Fin a → EReal => (Finset.univ : Finset (Fin a)).fold min ⊤ g)
    (funext fun k => congrArg src (liftCol h q k))

end General

/-! ## The body's values -/

/-- Entry (r, q) of the distance table is the clipped squared distance of point r of the first block and point q of
    the second. -/
theorem pay7_apply (x0 x1 : Vec Ideal S1x1408x3 .f32) (r q : Fin 1408) :
    k0_pay7 (F := Ideal) x0 x1 (ix2 r q) = d2 (fun k => x0 (ix3 0 r k)) (fun k => x1 (ix3 0 q k)) := by
  -- the second block, as a matrix and transposed, reads coordinate k of its point q at (k, q)
  have hT : ∀ k : Fin 3, transpose S3x1408 [1, 0] (shapeCast S1408x3 x1 shapeCasts_S1x1408x3_S1408x3)
      transposes_S1408x3_p1_0_S3x1408 (ix2 k q) = x1 (ix3 0 q k) := fun k =>
    (transpose_ix2_apply _ _ k q).trans (shapeCast_1ab_ab_apply x1 _ q k)
  -- the squared norm of point r of the first block: the lane sum of the squares of its row
  have hsq0 : multiReduction (F := Ideal) FKind.add [1] S1408
      (mulf (shapeCast S1408x3 x0 shapeCasts_S1x1408x3_S1408x3) (shapeCast S1408x3 x0 shapeCasts_S1x1408x3_S1408x3))
      0x00000000#32 reduces_S1408x3_S1408 (.inl rfl) rfl (ix1 r) = Chamfer.sq (fun k => x0 (ix3 0 r k)) := by
    refine (sumRow_apply _ _ _ _ r).trans ?_
    refine Finset.sum_congr rfl fun k _ => ?_
    rw [mulf_apply, shapeCast_1ab_ab_apply]
  -- the squared norm of point q of the second block: the sum down column q of the transposed matrix's squares
  have hsq1 : multiReduction (F := Ideal) FKind.add [0] S1408
      (mulf (transpose S3x1408 [1, 0] (shapeCast S1408x3 x1 shapeCasts_S1x1408x3_S1408x3) transposes_S1408x3_p1_0_S3x1408)
        (transpose S3x1408 [1, 0] (shapeCast S1408x3 x1 shapeCasts_S1x1408x3_S1408x3) transposes_S1408x3_p1_0_S3x1408))
      0x00000000#32 reduces_S3x1408_S1408 (.inl rfl) rfl (ix1 q) = Chamfer.sq (fun k => x1 (ix3 0 q k)) := by
    refine (sumCol_apply _ _ _ _ q).trans ?_
    refine Finset.sum_congr rfl fun k _ => ?_
    rw [mulf_apply, hT]
  -- the inner product as the kernel spells it: the three coordinate products, summed left to right
  have hdot : dot (fun k => x0 (ix3 0 r k)) (fun k => x1 (ix3 0 q k))
      = x0 (ix3 0 r 0) * x1 (ix3 0 q 0) + x0 (ix3 0 r 1) * x1 (ix3 0 q 1) + x0 (ix3 0 r 2) * x1 (ix3 0 q 2) :=
    Fin.sum_univ_three _
  unfold k0_pay7
  -- the pointwise operations read through at (r, q)
  simp only [maximumf_apply, subf_apply, addf_apply, mulf_apply, broadcast_apply]
  -- a column broadcast reads its row, a row broadcast its column; the keepdims casts and the one-lane slices keep
  -- their entries; what is left are the two squared norms and the six coordinates
  simp only [bcastCol_apply, broadcastTo_1b_ab_apply, castCol_apply, shapeCast_a_1a_apply,
    slice2_axis1_eq, slice2_axis0_eq, shapeCast_1ab_ab_apply, hT, hsq0, hsq1]
  unfold d2
  refine congrArg₂ max ?_ Ideal.ofBits_zero_f32
  rw [hdot]
  rfl

/-- The row minima of the table: from +∞, the least entry of row r. -/
theorem pay8_apply (x0 x1 : Vec Ideal S1x1408x3 .f32) (r : Fin 1408) :
    k0_pay8 (F := Ideal) x0 x1 (ix1 r)
      = (Finset.univ : Finset (Fin 1408)).fold min ⊤ (fun q => k0_pay7 (F := Ideal) x0 x1 (ix2 r q)) := by
  unfold k0_pay8
  exact minRow_apply (k0_pay7 (F := Ideal) x0 x1) _ _ _ r

/-- The stretch of the row scratch after the step: the lesser of what it held and the row minimum. -/
theorem pay1_apply (v41 : FVec Ideal S1408 .f32) (v50 : Vec Ideal S1408x1 .f32) (r : Fin 1408) :
    k0_pay1 (F := Ideal) v41 v50 (ix2 r 0) = min (v50 (ix2 r 0)) (v41 (ix1 r)) := by
  unfold k0_pay1
  -- the cast to the same shape is the identity; the row minima enter as a column
  refine (congrFun (shapeCast_self _ _) _).trans ?_
  exact congrArg (min (v50 (ix2 r 0))) (castCol_apply v41 _ r 0)

/-- The stretch of the column scratch after the step: the lesser of what it held and the column minimum of the table. -/
theorem pay2_apply (v40 : FVec Ideal S1408x1408 .f32) (v57 : Vec Ideal S1x1408 .f32) (q : Fin 1408) :
    k0_pay2 (F := Ideal) v40 v57 (ix2 0 q)
      = min (v57 (ix2 0 q)) ((Finset.univ : Finset (Fin 1408)).fold min ⊤ (fun r => v40 (ix2 r q))) := by
  unfold k0_pay2
  -- the cast to the same shape is the identity; the column minima enter as a row
  refine (congrFun (shapeCast_self _ _) _).trans ?_
  refine congrArg (min (v57 (ix2 0 q))) ?_
  refine (shapeCast_a_1a_apply _ _ 0 q).trans ?_
  exact minCol_apply v40 _ _ _ q

/-- The output block of the row minima is the row scratch with a leading unit axis. -/
theorem pay3_apply (v63 : Vec Ideal S4224x1 .f32) (n : Fin 4224) :
    k0_pay3 (F := Ideal) v63 (ix3 0 n 0) = v63 (ix2 n 0) := by
  unfold k0_pay3
  exact shapeCast_ab_1ab_apply v63 _ 0 n 0

/-- The output block of the column minima is the column scratch with a leading unit axis. -/
theorem pay4_apply (v67 : Vec Ideal S1x4224 .f32) (m : Fin 4224) :
    k0_pay4 (F := Ideal) v67 (ix3 0 0 m) = v67 (ix2 0 m) := by
  unfold k0_pay4
  exact shapeCast_ab_1ab_apply v67 _ 0 0 m

/-- The reset value of the row scratch is +∞ everywhere. -/
theorem pay5_apply (i : S4224x1.Idx) : k0_pay5 (F := Ideal) i = (⊤ : EReal) := by
  unfold k0_pay5
  -- the cast to the same shape is the identity, the splat reads its constant, and the constant's pattern is +∞'s
  refine (congrFun (shapeCast_self _ _) i).trans ?_
  exact ofBits_inf

/-- The reset value of the column scratch is +∞ everywhere. -/
theorem pay6_apply (i : S1x4224.Idx) : k0_pay6 (F := Ideal) i = (⊤ : EReal) := by
  unfold k0_pay6
  refine (congrFun (shapeCast_self _ _) i).trans ?_
  exact ofBits_inf

end Cert.KernelIdeal.PayloadAt

end
-- ==== Proof.KernelPieces.lean ====
/-
  What one grid point leaves in the two running-minimum scratch buffers and in the two output blocks, read at an
  index. At point (b, ni, mi) the body lowers rows ni·1408 … ni·1408 + 1407 of the row scratch by the row minima of
  the point's distance table and leaves the other rows as they were; it lowers columns mi·1408 … of the column
  scratch by the table's column minima; at the first point of a batch both scratches are first reset to +∞; and
  each output block is a copy of its scratch after the step.
-/
import proofs.«163228_j67577015435957_1_alg».proof.Proof.Gen.KernelIdeal.Frame
import proofs.«163228_j67577015435957_1_alg».proof.Proof.KernelPayload
import Idealize.ShloMosaic.Lib.Pipeline.Value
import Idealize.ShloMosaic.Lib.ValueIdx

set_option maxRecDepth 16384

noncomputable section

namespace Cert.KernelIdeal.PiecesAt

open Idealize.ShloMosaic Idealize.ShloMosaic.TcCoe Idealize.ShloMosaic.Tactic Idealize.ShloMosaic.ValueIdx Idealize.SL.Sem
open Cert.KernelIdeal Cert.KernelIdeal.Gen Cert.KernelIdeal.PayloadAt

/-! ## One store through a rectangle, read at an index -/

section OneStore

variable {sg : RefSig} {κ : Kind} {sp : Space} {S : Shape} {e : EltTy} {Val : EltTy → Type}

/-- Under the store's rectangle the buffer reads the payload. -/
theorem read_store_emb (v : View sg κ sp S e) (f : v.ty.Contents Val) (r : Rect S) (w : r.shape.Idx → Val e)
    (x : r.shape.Idx) : v.read Val (v.writes Val f [⟨r, w⟩]) (r.emb x) = w x :=
  View.read_writes_cons_emb v f r w [] x

/-- Off it the buffer reads what it held. -/
theorem read_store_of_not_mem (v : View sg κ sp S e) (f : v.ty.Contents Val) (r : Rect S) (w : r.shape.Idx → Val e)
    (y : S.Idx) (h : y ∉ r.set) : v.read Val (v.writes Val f [⟨r, w⟩]) y = v.read Val f y :=
  View.read_writes_apply_of_forall_not_mem v f y [⟨r, w⟩] (by
    intro p hp; rw [List.mem_singleton] at hp; subst hp; exact h)

end OneStore

/-! ## The two stretches' offsets -/

/-- The row stretch starts at row ni·1408. -/
theorem off1_eq (i : grid0.Coords) : k0_off1 i = ![(i 1).val * 1408, 0] := by
  have h : ∀ x : Fin 3, (Scalar.indexCast (Scalar.muli (BitVec.ofNat 32 x.val) 1408#32)).toNat = x.val * 1408 := by decide
  unfold k0_off1
  dsimp only
  rw [h (i 1)]

/-- The column stretch starts at column mi·1408. -/
theorem off2_eq (i : grid0.Coords) : k0_off2 i = ![0, (i 2).val * 1408] := by
  have h : ∀ x : Fin 3, (Scalar.indexCast (Scalar.muli (BitVec.ofNat 32 x.val) 1408#32)).toNat = x.val * 1408 := by decide
  unfold k0_off2
  dsimp only
  rw [h (i 2)]

/-! ## A stretch of rows of a [4224, 1] buffer stored, read at a row -/

theorem rowStretch_read {sg : RefSig} {κ : Kind} {sp : Space} (v : View sg κ sp S4224x1 .f32) (f : v.ty.Contents (Elt Ideal))
    (off : Fin 2 → ℕ) (inb : ∀ a, off a + S1408x1.size a ≤ S4224x1.size a) (ni : ℕ) (hoff : off = ![ni * 1408, 0])
    (w : (Rect.unit (s := S4224x1) off S1408x1.size inb).shape.Idx → Elt Ideal .f32) (n : Fin 4224) :
    v.read (Elt Ideal) (v.writes (Elt Ideal) f [⟨Rect.unit (s := S4224x1) off S1408x1.size inb, w⟩]) (ix2 n 0)
      = if h : n.val / 1408 = ni then w (ix2 (⟨n.val - ni * 1408, by omega⟩ : Fin 1408) (0 : Fin 1))
        else v.read (Elt Ideal) f (ix2 n 0) := by
  subst hoff
  by_cases h : n.val / 1408 = ni
  · rw [dif_pos h]
    have e : (ix2 n (0 : Fin 1) : S4224x1.Idx)
        = (Rect.unit (s := S4224x1) ![ni * 1408, 0] S1408x1.size inb).emb (ix2 (⟨n.val - ni * 1408, by omega⟩ : Fin 1408) (0 : Fin 1)) := by
      funext a; apply Fin.ext
      match a with
      | ⟨0, _⟩ => show n.val = ni * 1408 + 1 * (n.val - ni * 1408); omega
      | ⟨1, _⟩ => rfl
    rw [e]; exact read_store_emb v f _ w _
  · rw [dif_neg h]
    refine read_store_of_not_mem v f _ w _ ?_
    rw [Rect.mem_set_unit]
    intro hm
    have h0 := hm (0 : Fin 2)
    have h1 : ni * 1408 ≤ n.val := h0.1
    have h2 : n.val < ni * 1408 + 1408 := h0.2
    omega

/-! ## A stretch of columns of a [1, 4224] buffer stored, read at a column -/

theorem colStretch_read {sg : RefSig} {κ : Kind} {sp : Space} (v : View sg κ sp S1x4224 .f32) (f : v.ty.Contents (Elt Ideal))
    (off : Fin 2 → ℕ) (inb : ∀ a, off a + S1x1408.size a ≤ S1x4224.size a) (mi : ℕ) (hoff : off = ![0, mi * 1408])
    (w : (Rect.unit (s := S1x4224) off S1x1408.size inb).shape.Idx → Elt Ideal .f32) (n : Fin 4224) :
    v.read (Elt Ideal) (v.writes (Elt Ideal) f [⟨Rect.unit (s := S1x4224) off S1x1408.size inb, w⟩]) (ix2 0 n)
      = if h : n.val / 1408 = mi then w (ix2 (0 : Fin 1) (⟨n.val - mi * 1408, by omega⟩ : Fin 1408))
        else v.read (Elt Ideal) f (ix2 0 n) := by
  subst hoff
  by_cases h : n.val / 1408 = mi
  · rw [dif_pos h]
    have e : (ix2 (0 : Fin 1) n : S1x4224.Idx)
        = (Rect.unit (s := S1x4224) ![0, mi * 1408] S1x1408.size inb).emb (ix2 (0 : Fin 1) (⟨n.val - mi * 1408, by omega⟩ : Fin 1408)) := by
      funext a; apply Fin.ext
      match a with
      | ⟨0, _⟩ => rfl
      | ⟨1, _⟩ => show n.val = mi * 1408 + 1 * (n.val - mi * 1408); omega
    rw [e]; exact read_store_emb v f _ w _
  · rw [dif_neg h]
    refine read_store_of_not_mem v f _ w _ ?_
    rw [Rect.mem_set_unit]
    intro hm
    have h0 := hm (1 : Fin 2)
    have h1 : mi * 1408 ≤ n.val := h0.1
    have h2 : n.val < mi * 1408 + 1408 := h0.2
    omega

/-! ## A load through a stretch -/

/-- A load through the row stretch reads the rows from ni·1408 on. -/
theorem ld_rowStretch (X : S4224x1.Idx → Elt Ideal .f32) (off : Fin 2 → ℕ) (inb : ∀ a, off a + S1408x1.size a ≤ S4224x1.size a)
    (ni : ℕ) (hoff : off = ![ni * 1408, 0]) (n : Fin 4224) (h : n.val / 1408 = ni) :
    View.ld X (Rect.unit (s := S4224x1) off S1408x1.size inb) (ix2 (⟨n.val - ni * 1408, by omega⟩ : Fin 1408) (0 : Fin 1)) = X (ix2 n 0) := by
  subst hoff
  show X _ = X _
  congr 1
  funext a; apply Fin.ext
  match a with
  | ⟨0, _⟩ => show ni * 1408 + 1 * (n.val - ni * 1408) = n.val; omega
  | ⟨1, _⟩ => rfl

/-- A load through the column stretch reads the columns from mi·1408 on. -/
theorem ld_colStretch (X : S1x4224.Idx → Elt Ideal .f32) (off : Fin 2 → ℕ) (inb : ∀ a, off a + S1x1408.size a ≤ S1x4224.size a)
    (mi : ℕ) (hoff : off = ![0, mi * 1408]) (n : Fin 4224) (h : n.val / 1408 = mi) :
    View.ld X (Rect.unit (s := S1x4224) off S1x1408.size inb) (ix2 (0 : Fin 1) (⟨n.val - mi * 1408, by omega⟩ : Fin 1408)) = X (ix2 0 n) := by
  subst hoff
  show X _ = X _
  congr 1
  funext a; apply Fin.ext
  match a with
  | ⟨0, _⟩ => rfl
  | ⟨1, _⟩ => show mi * 1408 + 1 * (n.val - mi * 1408) = n.val; omega

theorem hz3 : (![0, 0, 0] : Fin 3 → ℕ) = fun _ => 0 := by funext a; fin_cases a <;> rfl
theorem hz2 : (![0, 0] : Fin 2 → ℕ) = fun _ => 0 := by funext a; fin_cases a <;> rfl

/-! ## The row scratch after a point that does not reset it -/

theorem sout0_B_0_apply (c : Dev nD) (i : grid0.Coords) (arg3 : Memref sig .tc .vmem S1x1408x3 .f32) (harg3 : arg3.IsWhole) (arg4 : Memref sig .tc .vmem S1x1408x3 .f32) (harg4 : arg4.IsWhole) (arg5 : Memref sig .tc .vmem S1x4224x1 .f32) (harg5 : arg5.IsWhole) (arg6 : Memref sig .tc .vmem S1x1x4224 .f32) (harg6 : arg6.IsWhole) (arg7 : Memref sig .tc .vmem S4224x1 .f32) (harg7 : arg7.IsWhole) (arg8 : Memref sig .tc .vmem S1x4224 .f32) (harg8 : arg8.IsWhole) (hc0 : ¬cond0_0 i)
    (x0 x1 : Vec Ideal S1x1408x3 .f32) (xs0 : Vec Ideal S4224x1 .f32) (xs1 : Vec Ideal S1x4224 .f32) (n : Fin 4224) :
    sout0_B_0 (F := Ideal) c i arg3 harg3 arg4 harg4 arg5 harg5 arg6 harg6 arg7 harg7 arg8 harg8 hc0 x0 x1 xs0 xs1 (ix2 n 0)
      = if h : n.val / 1408 = (i 1).val
          then min (xs0 (ix2 n 0)) (k0_pay8 (F := Ideal) x0 x1 (ix1 (⟨n.val - (i 1).val * 1408, by omega⟩ : Fin 1408)))
          else xs0 (ix2 n 0) := by
  unfold sout0_B_0 kernelRun0_B
  dsimp only
  sl_unfold_words
  refine (rowStretch_read arg7.view _ _ _ (i 1).val (off1_eq i) _ n).trans ?_
  simp only [View.readAt_eq_ld, harg3.read_unread, harg4.read_unread, harg7.read_unread, View.ld_unit_zero (S := S1x1408x3) hz3]
  by_cases h : n.val / 1408 = (i 1).val
  · rw [dif_pos h, dif_pos h, pay1_apply]
    exact congrArg (fun z => min z _) (ld_rowStretch xs0 _ _ (i 1).val (off1_eq i) n h)
  · rw [dif_neg h, dif_neg h]

/-! ## The column scratch after a point that does not reset it -/

theorem sout0_B_1_apply (c : Dev nD) (i : grid0.Coords) (arg3 : Memref sig .tc .vmem S1x1408x3 .f32) (harg3 : arg3.IsWhole) (arg4 : Memref sig .tc .vmem S1x1408x3 .f32) (harg4 : arg4.IsWhole) (arg5 : Memref sig .tc .vmem S1x4224x1 .f32) (harg5 : arg5.IsWhole) (arg6 : Memref sig .tc .vmem S1x1x4224 .f32) (harg6 : arg6.IsWhole) (arg7 : Memref sig .tc .vmem S4224x1 .f32) (harg7 : arg7.IsWhole) (arg8 : Memref sig .tc .vmem S1x4224 .f32) (harg8 : arg8.IsWhole) (hc0 : ¬cond0_0 i)
    (x0 x1 : Vec Ideal S1x1408x3 .f32) (xs0 : Vec Ideal S4224x1 .f32) (xs1 : Vec Ideal S1x4224 .f32) (n : Fin 4224) :
    sout0_B_1 (F := Ideal) c i arg3 harg3 arg4 harg4 arg5 harg5 arg6 harg6 arg7 harg7 arg8 harg8 hc0 x0 x1 xs0 xs1 (ix2 0 n)
      = if h : n.val / 1408 = (i 2).val
          then min (xs1 (ix2 0 n)) ((Finset.univ : Finset (Fin 1408)).fold min ⊤
            (fun r => k0_pay7 (F := Ideal) x0 x1 (ix2 r (⟨n.val - (i 2).val * 1408, by omega⟩ : Fin 1408))))
          else xs1 (ix2 0 n) := by
  unfold sout0_B_1 kernelRun0_B
  dsimp only
  sl_unfold_words
  refine (colStretch_read arg8.view _ _ _ (i 2).val (off2_eq i) _ n).trans ?_
  simp only [View.readAt_eq_ld, harg3.read_unread, harg4.read_unread, harg8.read_unread, View.ld_unit_zero (S := S1x1408x3) hz3]
  by_cases h : n.val / 1408 = (i 2).val
  · rw [dif_pos h, dif_pos h, pay2_apply]
    exact congrArg (fun z => min z _) (ld_colStretch xs1 _ _ (i 2).val (off2_eq i) n h)
  · rw [dif_neg h, dif_neg h]

/-! ## The output blocks are copies of the scratches -/

theorem out0_B_2_eq {F : FTy → Type} [FloatOps F] (c : Dev nD) (i : grid0.Coords) (arg3 : Memref sig .tc .vmem S1x1408x3 .f32) (harg3 : arg3.IsWhole) (arg4 : Memref sig .tc .vmem S1x1408x3 .f32) (harg4 : arg4.IsWhole) (arg5 : Memref sig .tc .vmem S1x4224x1 .f32) (harg5 : arg5.IsWhole) (arg6 : Memref sig .tc .vmem S1x1x4224 .f32) (harg6 : arg6.IsWhole) (arg7 : Memref sig .tc .vmem S4224x1 .f32) (harg7 : arg7.IsWhole) (arg8 : Memref sig .tc .vmem S1x4224 .f32) (harg8 : arg8.IsWhole) (hc0 : ¬cond0_0 i)
    (x0 x1 : Vec F S1x1408x3 .f32) (xs0 : Vec F S4224x1 .f32) (xs1 : Vec F S1x4224 .f32) :
    out0_B_2 c i arg3 harg3 arg4 harg4 arg5 harg5 arg6 harg6 arg7 harg7 arg8 harg8 hc0 x0 x1 xs0 xs1 = k0_pay3 (sout0_B_0 c i arg3 harg3 arg4 harg4 arg5 harg5 arg6 harg6 arg7 harg7 arg8 harg8 hc0 x0 x1 xs0 xs1) := by
  unfold out0_B_2 sout0_B_0
  rw [View.read_writes_eq_canon _ _ _ (cover0_B_2 c i arg3 harg3 arg4 harg4 arg5 harg5 arg6 harg6 arg7 harg7 arg8 harg8 hc0 x0 x1 xs0 xs1)]
  unfold kernelRun0_B
  dsimp only
  sl_unfold_words
  rw [View.canon_unit_zero hz3]
  simp only [View.readAt_eq_ld, View.ld_unit_zero (S := S4224x1) hz2]

theorem out0_B_3_eq {F : FTy → Type} [FloatOps F] (c : Dev nD) (i : grid0.Coords) (arg3 : Memref sig .tc .vmem S1x1408x3 .f32) (harg3 : arg3.IsWhole) (arg4 : Memref sig .tc .vmem S1x1408x3 .f32) (harg4 : arg4.IsWhole) (arg5 : Memref sig .tc .vmem S1x4224x1 .f32) (harg5 : arg5.IsWhole) (arg6 : Memref sig .tc .vmem S1x1x4224 .f32) (harg6 : arg6.IsWhole) (arg7 : Memref sig .tc .vmem S4224x1 .f32) (harg7 : arg7.IsWhole) (arg8 : Memref sig .tc .vmem S1x4224 .f32) (harg8 : arg8.IsWhole) (hc0 : ¬cond0_0 i)
    (x0 x1 : Vec F S1x1408x3 .f32) (xs0 : Vec F S4224x1 .f32) (xs1 : Vec F S1x4224 .f32) :
    out0_B_3 c i arg3 harg3 arg4 harg4 arg5 harg5 arg6 harg6 arg7 harg7 arg8 harg8 hc0 x0 x1 xs0 xs1 = k0_pay4 (sout0_B_1 c i arg3 harg3 arg4 harg4 arg5 harg5 arg6 harg6 arg7 harg7 arg8 harg8 hc0 x0 x1 xs0 xs1) := by
  unfold out0_B_3 sout0_B_1
  rw [View.read_writes_eq_canon _ _ _ (cover0_B_3 c i arg3 harg3 arg4 harg4 arg5 harg5 arg6 harg6 arg7 harg7 arg8 harg8 hc0 x0 x1 xs0 xs1)]
  unfold kernelRun0_B
  dsimp only
  sl_unfold_words
  rw [View.canon_unit_zero hz3]
  simp only [View.readAt_eq_ld, View.ld_unit_zero (S := S1x4224) hz2]

/-! ## The first point of a batch: reset, then lower -/

section Canon

/-- One store of the whole buffer leaves its payload. -/
theorem read_store_whole {sg : RefSig} {κ : Kind} {sp : Space} {S : Shape} {e : EltTy} {Val : EltTy → Type} [∀ e, Nonempty (Val e)]
    (v : View sg κ sp S e) (f : v.ty.Contents Val) (off : Fin S.rank → ℕ) (h : off = fun _ => 0)
    (inb : ∀ a, off a + S.size a ≤ S.size a) (w : S.Idx → Val e) :
    v.read Val (v.writes Val f [⟨Rect.unit off S.size inb, w⟩]) = w := by
  rw [View.read_writes_eq_canon _ _ _ (fun y => ⟨_, List.mem_singleton_self _, View.mem_set_unit_zero h inb y⟩),
    View.canon_unit_zero h]

/-- A stretch of rows stored last: under it the payload, off it what the earlier stores left. -/
theorem rowStretch_canon (off : Fin 2 → ℕ) (inb : ∀ a, off a + S1408x1.size a ≤ S4224x1.size a) (ni : ℕ) (hoff : off = ![ni * 1408, 0])
    (w : (Rect.unit (s := S4224x1) off S1408x1.size inb).shape.Idx → Elt Ideal .f32)
    (L : List (View.Piece (Elt Ideal) S4224x1 .f32)) (n : Fin 4224) :
    View.canon ((⟨Rect.unit (s := S4224x1) off S1408x1.size inb, w⟩ : View.Piece (Elt Ideal) S4224x1 .f32) :: L) (ix2 n 0)
      = if h : n.val / 1408 = ni then w (ix2 (⟨n.val - ni * 1408, by omega⟩ : Fin 1408) (0 : Fin 1))
        else View.canon L (ix2 n 0) := by
  subst hoff
  by_cases h : n.val / 1408 = ni
  · rw [dif_pos h]
    have e : (ix2 n (0 : Fin 1) : S4224x1.Idx)
        = (Rect.unit (s := S4224x1) ![ni * 1408, 0] S1408x1.size inb).emb (ix2 (⟨n.val - ni * 1408, by omega⟩ : Fin 1408) (0 : Fin 1)) := by
      funext a; apply Fin.ext
      match a with
      | ⟨0, _⟩ => show n.val = ni * 1408 + 1 * (n.val - ni * 1408); omega
      | ⟨1, _⟩ => rfl
    rw [e]; exact View.canon_cons_emb _ w L _
  · rw [dif_neg h]
    refine View.canon_cons_of_not_mem _ L ?_
    show _ ∉ (Rect.unit (s := S4224x1) ![ni * 1408, 0] S1408x1.size inb).set
    rw [Rect.mem_set_unit]
    intro hm
    have h0 := hm (0 : Fin 2)
    have h1 : ni * 1408 ≤ n.val := h0.1
    have h2 : n.val < ni * 1408 + 1408 := h0.2
    omega

/-- A stretch of columns stored last, likewise. -/
theorem colStretch_canon (off : Fin 2 → ℕ) (inb : ∀ a, off a + S1x1408.size a ≤ S1x4224.size a) (mi : ℕ) (hoff : off = ![0, mi * 1408])
    (w : (Rect.unit (s := S1x4224) off S1x1408.size inb).shape.Idx → Elt Ideal .f32)
    (L : List (View.Piece (Elt Ideal) S1x4224 .f32)) (n : Fin 4224) :
    View.canon ((⟨Rect.unit (s := S1x4224) off S1x1408.size inb, w⟩ : View.Piece (Elt Ideal) S1x4224 .f32) :: L) (ix2 0 n)
      = if h : n.val / 1408 = mi then w (ix2 (0 : Fin 1) (⟨n.val - mi * 1408, by omega⟩ : Fin 1408))
        else View.canon L (ix2 0 n) := by
  subst hoff
  by_cases h : n.val / 1408 = mi
  · rw [dif_pos h]
    have e : (ix2 (0 : Fin 1) n : S1x4224.Idx)
        = (Rect.unit (s := S1x4224) ![0, mi * 1408] S1x1408.size inb).emb (ix2 (0 : Fin 1) (⟨n.val - mi * 1408, by omega⟩ : Fin 1408)) := by
      funext a; apply Fin.ext
      match a with
      | ⟨0, _⟩ => rfl
      | ⟨1, _⟩ => show n.val = mi * 1408 + 1 * (n.val - mi * 1408); omega
    rw [e]; exact View.canon_cons_emb _ w L _
  · rw [dif_neg h]
    refine View.canon_cons_of_not_mem _ L ?_
    show _ ∉ (Rect.unit (s := S1x4224) ![0, mi * 1408] S1x1408.size inb).set
    rw [Rect.mem_set_unit]
    intro hm
    have h0 := hm (1 : Fin 2)
    have h1 : mi * 1408 ≤ n.val := h0.1
    have h2 : n.val < mi * 1408 + 1408 := h0.2
    omega

end Canon

theorem sout0_A_0_apply (c : Dev nD) (i : grid0.Coords) (arg3 : Memref sig .tc .vmem S1x1408x3 .f32) (harg3 : arg3.IsWhole) (arg4 : Memref sig .tc .vmem S1x1408x3 .f32) (harg4 : arg4.IsWhole) (arg5 : Memref sig .tc .vmem S1x4224x1 .f32) (harg5 : arg5.IsWhole) (arg6 : Memref sig .tc .vmem S1x1x4224 .f32) (harg6 : arg6.IsWhole) (arg7 : Memref sig .tc .vmem S4224x1 .f32) (harg7 : arg7.IsWhole) (arg8 : Memref sig .tc .vmem S1x4224 .f32) (harg8 : arg8.IsWhole) (hc0 : cond0_0 i)
    (x0 x1 : Vec Ideal S1x1408x3 .f32) (n : Fin 4224) :
    sout0_A_0 (F := Ideal) c i arg3 harg3 arg4 harg4 arg5 harg5 arg6 harg6 arg7 harg7 arg8 harg8 hc0 x0 x1 (ix2 n 0)
      = if h : n.val / 1408 = (i 1).val
          then min ⊤ (k0_pay8 (F := Ideal) x0 x1 (ix1 (⟨n.val - (i 1).val * 1408, by omega⟩ : Fin 1408)))
          else ⊤ := by
  unfold sout0_A_0
  rw [View.read_writes_eq_canon _ _ _ (scover0_A_0 c i arg3 harg3 arg4 harg4 arg5 harg5 arg6 harg6 arg7 harg7 arg8 harg8 hc0 x0 x1)]
  unfold kernelRun0_A
  dsimp only
  sl_unfold_words
  refine (rowStretch_canon _ _ (i 1).val (off1_eq i) _ _ n).trans ?_
  rw [View.canon_unit_zero hz2]
  simp only [View.readAt_eq_ld, harg3.read_unread, harg4.read_unread, View.ld_unit_zero (S := S1x1408x3) hz3]
  by_cases h : n.val / 1408 = (i 1).val
  · rw [dif_pos h, dif_pos h, pay1_apply]
    refine congrArg (fun z => min z _) ?_
    refine (ld_rowStretch _ _ _ (i 1).val (off1_eq i) n h).trans ?_
    have hw : arg7.view.read (Elt Ideal) (arg7.view.writes (Elt Ideal) arg7.view.junk
        [⟨Rect.unit (s := S4224x1) ![0, 0] S4224x1.size inb_S4224x1_S4224x1_0_0, k0_pay5 (F := Ideal)⟩]) = k0_pay5 (F := Ideal) :=
      read_store_whole (S := S4224x1) (Val := Elt Ideal) arg7.view _ _ hz2 _ _
    exact (congrFun hw (ix2 n 0)).trans (pay5_apply _)
  · rw [dif_neg h, dif_neg h, pay5_apply]

theorem sout0_A_1_apply (c : Dev nD) (i : grid0.Coords) (arg3 : Memref sig .tc .vmem S1x1408x3 .f32) (harg3 : arg3.IsWhole) (arg4 : Memref sig .tc .vmem S1x1408x3 .f32) (harg4 : arg4.IsWhole) (arg5 : Memref sig .tc .vmem S1x4224x1 .f32) (harg5 : arg5.IsWhole) (arg6 : Memref sig .tc .vmem S1x1x4224 .f32) (harg6 : arg6.IsWhole) (arg7 : Memref sig .tc .vmem S4224x1 .f32) (harg7 : arg7.IsWhole) (arg8 : Memref sig .tc .vmem S1x4224 .f32) (harg8 : arg8.IsWhole) (hc0 : cond0_0 i)
    (x0 x1 : Vec Ideal S1x1408x3 .f32) (n : Fin 4224) :
    sout0_A_1 (F := Ideal) c i arg3 harg3 arg4 harg4 arg5 harg5 arg6 harg6 arg7 harg7 arg8 harg8 hc0 x0 x1 (ix2 0 n)
      = if h : n.val / 1408 = (i 2).val
          then min ⊤ ((Finset.univ : Finset (Fin 1408)).fold min ⊤
            (fun r => k0_pay7 (F := Ideal) x0 x1 (ix2 r (⟨n.val - (i 2).val * 1408, by omega⟩ : Fin 1408))))
          else ⊤ := by
  unfold sout0_A_1
  rw [View.read_writes_eq_canon _ _ _ (scover0_A_1 c i arg3 harg3 arg4 harg4 arg5 harg5 arg6 harg6 arg7 harg7 arg8 harg8 hc0 x0 x1)]
  unfold kernelRun0_A
  dsimp only
  sl_unfold_words
  refine (colStretch_canon _ _ (i 2).val (off2_eq i) _ _ n).trans ?_
  rw [View.canon_unit_zero hz2]
  simp only [View.readAt_eq_ld, harg3.read_unread, harg4.read_unread, View.ld_unit_zero (S := S1x1408x3) hz3]
  by_cases h : n.val / 1408 = (i 2).val
  · rw [dif_pos h, dif_pos h, pay2_apply]
    refine congrArg (fun z => min z _) ?_
    refine (ld_colStretch _ _ _ (i 2).val (off2_eq i) n h).trans ?_
    have hw : arg8.view.read (Elt Ideal) (arg8.view.writes (Elt Ideal) arg8.view.junk
        [⟨Rect.unit (s := S1x4224) ![0, 0] S1x4224.size inb_S1x4224_S1x4224_0_0, k0_pay6 (F := Ideal)⟩]) = k0_pay6 (F := Ideal) :=
      read_store_whole (S := S1x4224) (Val := Elt Ideal) arg8.view _ _ hz2 _ _
    exact (congrFun hw (ix2 0 n)).trans (pay6_apply _)
  · rw [dif_neg h, dif_neg h, pay6_apply]

end Cert.KernelIdeal.PiecesAt

end
-- ==== Proof.KernelPiecesFirst.lean ====
/-
  At the first point of a batch too, each output block is a copy of its scratch after the step: the body stores the
  scratch, read back whole, into the output block, and a piece list that covers the buffer reads the same through any
  view and over any earlier contents.
-/
import proofs.«163228_j67577015435957_1_alg».proof.Proof.Gen.KernelIdeal.Frame
import proofs.«163228_j67577015435957_1_alg».proof.Proof.KernelPieces
import Idealize.ShloMosaic.Lib.Pipeline.Value
import Idealize.ShloMosaic.Lib.ValueIdx

set_option maxRecDepth 16384

noncomputable section

namespace Cert.KernelIdeal.PiecesAt

open Idealize.ShloMosaic Idealize.ShloMosaic.TcCoe Idealize.ShloMosaic.Tactic Idealize.ShloMosaic.ValueIdx Idealize.SL.Sem
open Cert.KernelIdeal Cert.KernelIdeal.Gen

/-- A covered load of the whole buffer after the stores L reads what any view of the shape reads after the same stores,
    when L covers the shape. -/
theorem readCov_whole_eq_read {sg sg' : RefSig} {κ κ' : Kind} {sp sp' : Space} {S : Shape} {e : EltTy} {Val : EltTy → Type}
    [∀ e, Nonempty (Val e)] (v : View sg κ sp S e) (v' : View sg' κ' sp' S e) (f' : v'.ty.Contents Val)
    (L : List (View.Piece Val S e)) (off : Fin S.rank → ℕ) (hz : off = fun _ => 0) (inb : ∀ a, off a + S.size a ≤ S.size a)
    (hcov : ∀ y : S.Idx, ∃ p ∈ L, y ∈ p.1.set) :
    v.readCov L (Rect.unit off S.size inb).toLoadRect = v'.read Val (v'.writes Val f' L) := by
  rw [View.readCov_eq_canon_ld _ _ _ hcov, View.read_writes_eq_canon _ _ _ hcov, View.ld_unit_zero hz]

set_option maxHeartbeats 1600000 in
theorem out0_A_2_eq {F : FTy → Type} [FloatOps F] (c : Dev nD) (i : grid0.Coords) (arg3 : Memref sig .tc .vmem S1x1408x3 .f32) (harg3 : arg3.IsWhole) (arg4 : Memref sig .tc .vmem S1x1408x3 .f32) (harg4 : arg4.IsWhole) (arg5 : Memref sig .tc .vmem S1x4224x1 .f32) (harg5 : arg5.IsWhole) (arg6 : Memref sig .tc .vmem S1x1x4224 .f32) (harg6 : arg6.IsWhole) (arg7 : Memref sig .tc .vmem S4224x1 .f32) (harg7 : arg7.IsWhole) (arg8 : Memref sig .tc .vmem S1x4224 .f32) (harg8 : arg8.IsWhole) (hc0 : cond0_0 i)
    (x0 x1 : Vec F S1x1408x3 .f32) :
    out0_A_2 c i arg3 harg3 arg4 harg4 arg5 harg5 arg6 harg6 arg7 harg7 arg8 harg8 hc0 x0 x1 = k0_pay3 (sout0_A_0 c i arg3 harg3 arg4 harg4 arg5 harg5 arg6 harg6 arg7 harg7 arg8 harg8 hc0 x0 x1) := by
  unfold out0_A_2 sout0_A_0
  rw [View.read_writes_eq_canon _ _ _ (cover0_A_2 c i arg3 harg3 arg4 harg4 arg5 harg5 arg6 harg6 arg7 harg7 arg8 harg8 hc0 x0 x1)]
  unfold kernelRun0_A
  dsimp only
  sl_unfold_words
  rw [View.canon_unit_zero hz3]
  refine congrArg k0_pay3 ?_
  exact readCov_whole_eq_read (S := S4224x1) _ _ _ _ _ hz2 inb_S4224x1_S4224x1_0_0
    (fun y => ⟨_, List.mem_cons_of_mem _ (List.mem_singleton_self _), View.mem_set_unit_zero hz2 inb_S4224x1_S4224x1_0_0 y⟩)

set_option maxHeartbeats 1600000 in
theorem out0_A_3_eq {F : FTy → Type} [FloatOps F] (c : Dev nD) (i : grid0.Coords) (arg3 : Memref sig .tc .vmem S1x1408x3 .f32) (harg3 : arg3.IsWhole) (arg4 : Memref sig .tc .vmem S1x1408x3 .f32) (harg4 : arg4.IsWhole) (arg5 : Memref sig .tc .vmem S1x4224x1 .f32) (harg5 : arg5.IsWhole) (arg6 : Memref sig .tc .vmem S1x1x4224 .f32) (harg6 : arg6.IsWhole) (arg7 : Memref sig .tc .vmem S4224x1 .f32) (harg7 : arg7.IsWhole) (arg8 : Memref sig .tc .vmem S1x4224 .f32) (harg8 : arg8.IsWhole) (hc0 : cond0_0 i)
    (x0 x1 : Vec F S1x1408x3 .f32) :
    out0_A_3 c i arg3 harg3 arg4 harg4 arg5 harg5 arg6 harg6 arg7 harg7 arg8 harg8 hc0 x0 x1 = k0_pay4 (sout0_A_1 c i arg3 harg3 arg4 harg4 arg5 harg5 arg6 harg6 arg7 harg7 arg8 harg8 hc0 x0 x1) := by
  unfold out0_A_3 sout0_A_1
  rw [View.read_writes_eq_canon _ _ _ (cover0_A_3 c i arg3 harg3 arg4 harg4 arg5 harg5 arg6 harg6 arg7 harg7 arg8 harg8 hc0 x0 x1)]
  unfold kernelRun0_A
  dsimp only
  sl_unfold_words
  rw [View.canon_unit_zero hz3]
  refine congrArg k0_pay4 ?_
  exact readCov_whole_eq_read (S := S1x4224) _ _ _ _ _ hz2 inb_S1x4224_S1x4224_0_0
    (fun y => ⟨_, List.mem_cons_of_mem _ (List.mem_singleton_self _), View.mem_set_unit_zero hz2 inb_S1x4224_S1x4224_0_0 y⟩)

end Cert.KernelIdeal.PiecesAt

end
-- ==== Proof.KernelBlocks.lean ====
/-
  What the kernel region finds: the two input arrays are the clouds of each batch padded to 4224 points by copies of
  the pad point (the host lines before the region join each [8, 4096, 3] argument with a broadcast of the pad
  constant along the point axis), and at grid point (b, ni, mi) the first window's block is points
  ni·1408 … ni·1408 + 1407 of batch b of the first array, the second window's block points mi·1408 … of batch b of
  the second.
-/
import proofs.«163228_j67577015435957_1_alg».proof.Proof.Gen.KernelIdeal.Frame
import proofs.«163228_j67577015435957_1_alg».proof.Proof.ChamferSpec
import Idealize.ShloMosaic.Lib.Pipeline.Value
import Idealize.ShloMosaic.Lib.ValueIdx
import Idealize.ShloMosaic.Lib.StableHlo.Run

set_option maxRecDepth 16384

noncomputable section

namespace Cert.KernelIdeal.BlocksAt

open Idealize.ShloMosaic Idealize.ShloMosaic.TcCoe Idealize.ShloMosaic.ValueIdx Idealize.SL.Sem
open Cert.KernelIdeal Cert.KernelIdeal.Gen Cert.Chamfer

variable (m : (ℓ : Loc nD τ sig) → Buf (Elt Ideal) ℓ)

/-- The grid point's batch, row-tile and column-tile coordinates. -/
def bOf (t : Fin cfg0.N) : Fin 8 := grid0.coords t 0
def niOf (t : Fin cfg0.N) : Fin 3 := grid0.coords t 1
def miOf (t : Fin cfg0.N) : Fin 3 := grid0.coords t 2

/-- Batch b of an [8, 4096, 3] array as a cloud of 4096 points. -/
def cloud (x : S8x4096x3.Idx → EReal) (b : Fin 8) : Fin 4096 → Fin 3 → EReal := fun n k => x (ix3 b n k)

/-- The two padded arrays as the region finds them, at their literal type. -/
abbrev xarr (c : Dev nD) : S8x4224x3.Idx → EReal := V m c main_v2
abbrev yarr (c : Dev nD) : S8x4224x3.Idx → EReal := V m c main_v3

/-- The first padded array: batch b's cloud of the first argument padded to 4224 points. -/
theorem xarr_apply (c : Dev nD) (b : Fin 8) (n : Fin 4224) (k : Fin 3) :
    xarr m c (ix3 b n k) = padTo 4224 (cloud (m ((c : Thread nD τ).loc main_arg0)) b) n k := by
  -- the host lines before the region: the array is the argument joined, along axis 1, with the [8, 128, 3]
  -- broadcast of the pad constant
  have e : (V m c main_v2 : S8x4224x3.Idx → EReal)
      = concatenate S8x4224x3 1 [⟨S8x4096x3, m ((c : Thread nD τ).loc main_arg0)⟩,
          ⟨S8x128x3, broadcastInDim S8x128x3 ![] bcast_S_S8x128x3 (constant (F := Ideal) S_ .f32 0x447A0000#32)⟩]
          concatenates_S8x4096x3_S8x128x3_S8x4224x3_d1 := by
    show StableHlo.after hostOps0 (fun b => m (c, b)) (Proc.devRef .tc main_v2) = _
    after_results
  -- read the concatenation along the point axis at (b, n, k): below 4096 it is the argument at (b, n, k),
  -- from 4096 on the broadcast of the pad constant at (b, n − 4096, k), whose every element is the pad value
  show V m c main_v2 (ix3 b n k) = _
  rw [e]
  by_cases h : n.val < 4096
  · rw [padTo_lt _ _ _ h]
    exact concatenate_pair_apply_left (t := S8x4224x3) (s₁ := S8x4096x3) (s₂ := S8x128x3) (1 : Fin 3) _ _ _
      (ix3 b n k) rfl (ix3 b (⟨n.val, h⟩ : Fin 4096) k)
      (fun a => by match a with | ⟨0, _⟩ => rfl | ⟨1, _⟩ => rfl | ⟨2, _⟩ => rfl)
  · rw [padTo_ge _ _ _ h]
    refine (concatenate_pair_apply_right (t := S8x4224x3) (s₁ := S8x4096x3) (s₂ := S8x128x3) (1 : Fin 3) _ _ _
      (ix3 b n k) rfl rfl (ix3 b (⟨n.val - 4096, by have := n.isLt; omega⟩ : Fin 128) k) ?_ ?_).trans ?_
    · intro a ha
      match a with
      | ⟨0, _⟩ => rfl
      | ⟨1, _⟩ => exact absurd rfl ha
      | ⟨2, _⟩ => rfl
    · show n.val - 4096 + 4096 = n.val
      omega
    · rfl

/-- The second padded array likewise, of the second argument. -/
theorem yarr_apply (c : Dev nD) (b : Fin 8) (n : Fin 4224) (k : Fin 3) :
    yarr m c (ix3 b n k) = padTo 4224 (cloud (m ((c : Thread nD τ).loc main_arg1)) b) n k := by
  -- the host lines before the region: the array is the argument joined, along axis 1, with the [8, 128, 3]
  -- broadcast of the pad constant
  have e : (V m c main_v3 : S8x4224x3.Idx → EReal)
      = concatenate S8x4224x3 1 [⟨S8x4096x3, m ((c : Thread nD τ).loc main_arg1)⟩,
          ⟨S8x128x3, broadcastInDim S8x128x3 ![] bcast_S_S8x128x3 (constant (F := Ideal) S_ .f32 0x447A0000#32)⟩]
          concatenates_S8x4096x3_S8x128x3_S8x4224x3_d1 := by
    show StableHlo.after hostOps0 (fun b => m (c, b)) (Proc.devRef .tc main_v3) = _
    after_results
  -- read the concatenation along the point axis at (b, n, k): below 4096 it is the argument at (b, n, k),
  -- from 4096 on the broadcast of the pad constant at (b, n − 4096, k), whose every element is the pad value
  show V m c main_v3 (ix3 b n k) = _
  rw [e]
  by_cases h : n.val < 4096
  · rw [padTo_lt _ _ _ h]
    exact concatenate_pair_apply_left (t := S8x4224x3) (s₁ := S8x4096x3) (s₂ := S8x128x3) (1 : Fin 3) _ _ _
      (ix3 b n k) rfl (ix3 b (⟨n.val, h⟩ : Fin 4096) k)
      (fun a => by match a with | ⟨0, _⟩ => rfl | ⟨1, _⟩ => rfl | ⟨2, _⟩ => rfl)
  · rw [padTo_ge _ _ _ h]
    refine (concatenate_pair_apply_right (t := S8x4224x3) (s₁ := S8x4096x3) (s₂ := S8x128x3) (1 : Fin 3) _ _ _
      (ix3 b n k) rfl rfl (ix3 b (⟨n.val - 4096, by have := n.isLt; omega⟩ : Fin 128) k) ?_ ?_).trans ?_
    · intro a ha
      match a with
      | ⟨0, _⟩ => rfl
      | ⟨1, _⟩ => exact absurd rfl ha
      | ⟨2, _⟩ => rfl
    · show n.val - 4096 + 4096 = n.val
      omega
    · rfl

/-- The two input blocks at a grid point, at their literal type. -/
abbrev xblk (c : Dev nD) (t : Fin cfg0.N) : Vec Ideal S1x1408x3 .f32 := iblk m c 0 t
abbrev yblk (c : Dev nD) (t : Fin cfg0.N) : Vec Ideal S1x1408x3 .f32 := iblk m c 1 t

/-- Point r of the first block is point ni·1408 + r of batch b of the first array. -/
theorem xblk_apply (c : Dev nD) (t : Fin cfg0.N) (r : Fin 1408) (k : Fin 3) :
    xblk m c t (ix3 0 r k)
      = xarr m c (ix3 (bOf t) ⟨(niOf t).val * 1408 + r.val, by have := (niOf t).isLt; have := r.isLt; omega⟩ k) := by
  show V m c main_v2 (((cfg0.win 0).blk t).view.emb (ix3 0 r k)) = V m c main_v2 _
  -- the block's element (0, r, k) sits in the array, on each axis, at block index × block size + its own coordinate;
  -- the block index is (b, ni, 0) and the block sizes are (1, 1408, 3), the coordinates being below 2³²
  refine congrArg (V m c main_v2) (funext fun a => Fin.ext ?_)
  match a with
  | ⟨0, _⟩ =>
    show (BitVec.ofNat 32 (bOf t).val).toNat * 1 + 1 * 0 = (bOf t).val
    rw [BitVec.toNat_ofNat, Nat.mod_eq_of_lt (by have := (bOf t).isLt; omega)]
    omega
  | ⟨1, _⟩ =>
    show (BitVec.ofNat 32 (niOf t).val).toNat * 1408 + 1 * r.val = (niOf t).val * 1408 + r.val
    rw [BitVec.toNat_ofNat, Nat.mod_eq_of_lt (by have := (niOf t).isLt; omega)]
    omega
  | ⟨2, _⟩ =>
    show (0#32).toNat * 3 + 1 * k.val = k.val
    rw [BitVec.toNat_ofNat]
    omega

/-- Point q of the second block is point mi·1408 + q of batch b of the second array. -/
theorem yblk_apply (c : Dev nD) (t : Fin cfg0.N) (q : Fin 1408) (k : Fin 3) :
    yblk m c t (ix3 0 q k)
      = yarr m c (ix3 (bOf t) ⟨(miOf t).val * 1408 + q.val, by have := (miOf t).isLt; have := q.isLt; omega⟩ k) := by
  show V m c main_v3 (((cfg0.win 1).blk t).view.emb (ix3 0 q k)) = V m c main_v3 _
  -- the block's element (0, q, k) sits in the array, on each axis, at block index × block size + its own coordinate;
  -- the block index is (b, mi, 0) and the block sizes are (1, 1408, 3), the coordinates being below 2³²
  refine congrArg (V m c main_v3) (funext fun a => Fin.ext ?_)
  match a with
  | ⟨0, _⟩ =>
    show (BitVec.ofNat 32 (bOf t).val).toNat * 1 + 1 * 0 = (bOf t).val
    rw [BitVec.toNat_ofNat, Nat.mod_eq_of_lt (by have := (bOf t).isLt; omega)]
    omega
  | ⟨1, _⟩ =>
    show (BitVec.ofNat 32 (miOf t).val).toNat * 1408 + 1 * q.val = (miOf t).val * 1408 + q.val
    rw [BitVec.toNat_ofNat, Nat.mod_eq_of_lt (by have := (miOf t).isLt; omega)]
    omega
  | ⟨2, _⟩ =>
    show (0#32).toNat * 3 + 1 * k.val = k.val
    rw [BitVec.toNat_ofNat]
    omega

/-- The coordinates of grid point t of the 8 × 3 × 3 grid, row-major. -/
theorem coords_val (t : Fin cfg0.N) :
    (bOf t).val = t.val / 9 ∧ (niOf t).val = t.val % 9 / 3 ∧ (miOf t).val = t.val % 3 := by
  -- coordinate a of point t is t / (product of the later bounds) mod (bound a), with bounds 8, 3, 3: checked at
  -- each of the 72 points
  unfold bOf niOf miOf
  exact (by decide +kernel : ∀ t : Fin grid0.N, (grid0.coords t 0).val = t.val / 9
    ∧ (grid0.coords t 1).val = t.val % 9 / 3 ∧ (grid0.coords t 2).val = t.val % 3) t

end Cert.KernelIdeal.BlocksAt

end
-- ==== Proof.ChamferPartial.lean ====
/-
  The running minima of a 4224 × 4224 table of extended reals visited tile by tile: the table is cut into 3 × 3
  tiles of 1408 × 1408, visited in row-major order of the tiles (step s = 3·ni + mi visits tile (ni, mi)); after
  step s, row n has met exactly the columns m with 3·(n / 1408) + m / 1408 ≤ s, and column m the rows n with the same
  bound. Each step lowers the rows of its row tile by the tile's row minima and the columns of its column tile by
  the tile's column minima; after the ninth step every row and column has met the whole table.
-/
import Idealize.ShloMosaic.PureOps.Ideal

noncomputable section

namespace Cert.Chamfer

variable (D : Fin 4224 → Fin 4224 → EReal)

/-- Row n's minimum over the columns met by the end of step s. -/
def partRow (s : ℕ) (n : Fin 4224) : EReal :=
  (Finset.univ.filter fun m : Fin 4224 => 3 * (n.val / 1408) + m.val / 1408 ≤ s).fold min ⊤ (D n)
/-- Column m's minimum over the rows met by the end of step s. -/
def partCol (s : ℕ) (m : Fin 4224) : EReal :=
  (Finset.univ.filter fun n : Fin 4224 => 3 * (n.val / 1408) + m.val / 1408 ≤ s).fold min ⊤ (fun n => D n m)

/-- Position q of tile k along an axis. -/
def tilePos (k : Fin 3) (q : Fin 1408) : Fin 4224 := ⟨k.val * 1408 + q.val, by have := k.isLt; have := q.isLt; omega⟩

/-- Row n's minimum over the columns of column tile mi. -/
def tileRow (mi : Fin 3) (n : Fin 4224) : EReal :=
  (Finset.univ : Finset (Fin 1408)).fold min ⊤ (fun q => D n (tilePos mi q))
/-- Column m's minimum over the rows of row tile ni. -/
def tileCol (ni : Fin 3) (m : Fin 4224) : EReal :=
  (Finset.univ : Finset (Fin 1408)).fold min ⊤ (fun r => D (tilePos ni r) m)

/-- A fold of `min` from `⊤` is the finite infimum. -/
private theorem fold_min_eq_inf {α : Type*} (s : Finset α) (f : α → EReal) :
    s.fold min ⊤ f = s.inf f := rfl

/-- The positions whose quotient by 1408 is k are exactly the positions of tile k, so an infimum over
  them is an infimum over the tile's 1408 offsets. -/
private theorem inf_filter_tile (k : Fin 3) (f : Fin 4224 → EReal) :
    (Finset.univ.filter fun m : Fin 4224 => m.val / 1408 = k.val).inf f
      = (Finset.univ : Finset (Fin 1408)).inf (fun q => f (tilePos k q)) := by
  apply le_antisymm
  · refine Finset.le_inf fun q _ => Finset.inf_le ?_
    simp only [Finset.mem_filter, Finset.mem_univ, true_and, tilePos]
    have := q.isLt
    have := k.isLt
    omega
  · refine Finset.le_inf fun m hm => ?_
    simp only [Finset.mem_filter, Finset.mem_univ, true_and] at hm
    have hq : m.val % 1408 < 1408 := Nat.mod_lt _ (by norm_num)
    have hm' : tilePos k ⟨m.val % 1408, hq⟩ = m := by
      apply Fin.ext
      simp only [tilePos]
      omega
    have h := Finset.inf_le (f := fun q => f (tilePos k q)) (Finset.mem_univ (⟨m.val % 1408, hq⟩ : Fin 1408))
    simpa only [hm'] using h

theorem partRow_zero (n : Fin 4224) :
    partRow D 0 n = if n.val / 1408 = 0 then min ⊤ (tileRow D 0 n) else ⊤ := by
  unfold partRow tileRow
  simp only [fold_min_eq_inf]
  split_ifs with h
  · rw [min_eq_right le_top, ← inf_filter_tile 0 (D n)]
    congr 1
    ext m
    simp only [Finset.mem_filter, Finset.mem_univ, true_and, Fin.val_zero]
    omega
  · have hE : (Finset.univ.filter fun m : Fin 4224 => 3 * (n.val / 1408) + m.val / 1408 ≤ 0) = ∅ := by
      apply Finset.filter_eq_empty_iff.mpr
      intro m _
      omega
    rw [hE, Finset.inf_empty]

theorem partRow_step (s : ℕ) (ni mi : Fin 3) (hs : s + 1 = 3 * ni.val + mi.val) (n : Fin 4224) :
    partRow D (s + 1) n = if n.val / 1408 = ni.val then min (partRow D s n) (tileRow D mi n) else partRow D s n := by
  unfold partRow tileRow
  simp only [fold_min_eq_inf]
  have := ni.isLt
  have := mi.isLt
  have := n.isLt
  split_ifs with h
  · rw [← inf_filter_tile mi (D n), ← Finset.inf_union]
    congr 1
    ext m
    simp only [Finset.mem_filter, Finset.mem_univ, true_and, Finset.mem_union]
    have := m.isLt
    omega
  · congr 1
    ext m
    simp only [Finset.mem_filter, Finset.mem_univ, true_and]
    have := m.isLt
    omega

theorem partRow_last (n : Fin 4224) :
    partRow D 8 n = (Finset.univ : Finset (Fin 4224)).fold min ⊤ (D n) := by
  unfold partRow
  rw [Finset.filter_true_of_mem]
  intro m _
  have := m.isLt
  have := n.isLt
  omega

theorem partCol_zero (m : Fin 4224) :
    partCol D 0 m = if m.val / 1408 = 0 then min ⊤ (tileCol D 0 m) else ⊤ := by
  unfold partCol tileCol
  simp only [fold_min_eq_inf]
  split_ifs with h
  · rw [min_eq_right le_top, ← inf_filter_tile 0 (fun n => D n m)]
    congr 1
    ext n
    simp only [Finset.mem_filter, Finset.mem_univ, true_and, Fin.val_zero]
    omega
  · have hE : (Finset.univ.filter fun n : Fin 4224 => 3 * (n.val / 1408) + m.val / 1408 ≤ 0) = ∅ := by
      apply Finset.filter_eq_empty_iff.mpr
      intro n _
      omega
    rw [hE, Finset.inf_empty]

theorem partCol_step (s : ℕ) (ni mi : Fin 3) (hs : s + 1 = 3 * ni.val + mi.val) (m : Fin 4224) :
    partCol D (s + 1) m = if m.val / 1408 = mi.val then min (partCol D s m) (tileCol D ni m) else partCol D s m := by
  unfold partCol tileCol
  simp only [fold_min_eq_inf]
  have := ni.isLt
  have := mi.isLt
  have := m.isLt
  split_ifs with h
  · rw [← inf_filter_tile ni (fun n => D n m), ← Finset.inf_union]
    congr 1
    ext n
    simp only [Finset.mem_filter, Finset.mem_univ, true_and, Finset.mem_union]
    have := n.isLt
    omega
  · congr 1
    ext n
    simp only [Finset.mem_filter, Finset.mem_univ, true_and]
    have := n.isLt
    omega

theorem partCol_last (m : Fin 4224) :
    partCol D 8 m = (Finset.univ : Finset (Fin 4224)).fold min ⊤ (fun n => D n m) := by
  unfold partCol
  rw [Finset.filter_true_of_mem]
  intro n _
  have := m.isLt
  have := n.isLt
  omega

end Cert.Chamfer

end
-- ==== Proof.KernelInvariant.lean ====
/-
  The running minima over the grid. Batch b's nine points visit the 3 × 3 tiles of its 4224 × 4224 distance table in
  row-major order; by induction on the point, after step s of a batch the row scratch holds each row's minimum over
  the columns met so far and the column scratch each column's minimum over the rows met so far, the first point of
  the batch starting both from +∞. After the ninth point both hold the full minima, and the output blocks, copies of
  the scratches, are what is written back: the nearest-neighbour distances of the padded clouds.
-/
import proofs.«163228_j67577015435957_1_alg».proof.Proof.Gen.KernelIdeal.Frame
import proofs.«163228_j67577015435957_1_alg».proof.Proof.KernelPieces
import proofs.«163228_j67577015435957_1_alg».proof.Proof.KernelPiecesFirst
import proofs.«163228_j67577015435957_1_alg».proof.Proof.KernelBlocks
import proofs.«163228_j67577015435957_1_alg».proof.Proof.ChamferPartial
import proofs.«163228_j67577015435957_1_alg».proof.Proof.ChamferSpec
import Idealize.ShloMosaic.Lib.Pipeline.Value
import Idealize.ShloMosaic.Lib.ValueIdx

set_option maxRecDepth 16384

noncomputable section

namespace Cert.KernelIdeal.InvariantAt

open Idealize.ShloMosaic Idealize.ShloMosaic.TcCoe Idealize.ShloMosaic.ValueIdx Idealize.SL.Sem
open Cert.KernelIdeal Cert.KernelIdeal.Gen Cert.KernelIdeal.PayloadAt Cert.KernelIdeal.PiecesAt Cert.KernelIdeal.BlocksAt Cert.Chamfer

variable (m : (ℓ : Loc nD τ sig) → Buf (Elt Ideal) ℓ)

/-- Batch b's table of clipped squared distances between the points of the two padded arrays. -/
def Dtab (c : Dev nD) (b : Fin 8) : Fin 4224 → Fin 4224 → EReal :=
  fun n n' => d2 (fun k => xarr m c (ix3 b n k)) (fun k => yarr m c (ix3 b n' k))

/-- Entry (r, q) of a point's table is the batch table's entry at the tile's position. -/
theorem pay7_pt (c : Dev nD) (t : Fin cfg0.N) (r q : Fin 1408) :
    k0_pay7 (F := Ideal) (xblk m c t) (yblk m c t) (ix2 r q)
      = Dtab m c (bOf t) (tilePos (niOf t) r) (tilePos (miOf t) q) := by
  refine (pay7_apply (xblk m c t) (yblk m c t) r q).trans ?_
  exact congrArg₂ d2 (funext fun k => xblk_apply m c t r k) (funext fun k => yblk_apply m c t q k)

/-- The point's row minimum at a row of its row tile is the batch table's minimum over the point's column tile. -/
theorem rowTile_pt (c : Dev nD) (t : Fin cfg0.N) (n : Fin 4224) (h : n.val / 1408 = (niOf t).val) :
    k0_pay8 (F := Ideal) (xblk m c t) (yblk m c t) (ix1 (⟨n.val - (niOf t).val * 1408, by omega⟩ : Fin 1408))
      = tileRow (Dtab m c (bOf t)) (miOf t) n := by
  refine (pay8_apply (xblk m c t) (yblk m c t) _).trans ?_
  unfold tileRow
  refine Finset.fold_congr (fun q _ => ?_)
  refine (pay7_pt m c t _ q).trans ?_
  refine congrArg (fun z => Dtab m c (bOf t) z (tilePos (miOf t) q)) ?_
  exact Fin.ext (by show (niOf t).val * 1408 + (n.val - (niOf t).val * 1408) = n.val; omega)

/-- The point's column minimum at a column of its column tile is the batch table's minimum over the point's row tile. -/
theorem colTile_pt (c : Dev nD) (t : Fin cfg0.N) (n : Fin 4224) (h : n.val / 1408 = (miOf t).val) :
    (Finset.univ : Finset (Fin 1408)).fold min ⊤
        (fun r => k0_pay7 (F := Ideal) (xblk m c t) (yblk m c t) (ix2 r (⟨n.val - (miOf t).val * 1408, by omega⟩ : Fin 1408)))
      = tileCol (Dtab m c (bOf t)) (niOf t) n := by
  unfold tileCol
  refine Finset.fold_congr (fun r _ => ?_)
  refine (pay7_pt m c t r _).trans ?_
  refine congrArg (fun z => Dtab m c (bOf t) (tilePos (niOf t) r) z) ?_
  exact Fin.ext (by show (miOf t).val * 1408 + (n.val - (miOf t).val * 1408) = n.val; omega)

/-- After point t the scratches hold the running minima of t's batch after step t mod 9. -/
def Inv (c : Dev nD) (t : Fin cfg0.N) : Prop :=
  (∀ n : Fin 4224, ((outsAt0 m c t.val t.isLt).2.2.1 : S4224x1.Idx → EReal) (ix2 n 0)
      = partRow (Dtab m c (bOf t)) (t.val % 9) n)
  ∧ (∀ n : Fin 4224, ((outsAt0 m c t.val t.isLt).2.2.2 : S1x4224.Idx → EReal) (ix2 0 n)
      = partCol (Dtab m c (bOf t)) (t.val % 9) n)

theorem inv (c : Dev nD) (t : Fin cfg0.N) : Inv m c t := by
  have hN : t.val < 72 := lt_of_lt_of_eq t.isLt N_0
  obtain ⟨hb, hni, hmi⟩ := coords_val t
  by_cases h0 : t.val % 9 = 0
  · -- the first point of a batch: both scratches reset, then lowered by tile (0, 0)
    have hni0 : (niOf t).val = 0 := by rw [hni]; omega
    have hmi0 : (miOf t).val = 0 := by rw [hmi]; omega
    have hmiF : miOf t = 0 := Fin.ext hmi0
    have hniF : niOf t = 0 := Fin.ext hni0
    refine ⟨fun n => ?_, fun n => ?_⟩
    · rw [outsAt0_A m c t h0]
      dsimp only
      refine (sout0_A_0_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (xblk m c t) (yblk m c t) n).trans ?_
      rw [h0, partRow_zero]
      by_cases hn : n.val / 1408 = 0
      · rw [dif_pos (show n.val / 1408 = (grid0.coords t 1).val from hn.trans hni0.symm), if_pos hn]
        exact (congrArg (fun z => min ⊤ z) (rowTile_pt m c t n (hn.trans hni0.symm))).trans (by rw [hmiF])
      · rw [dif_neg (show ¬ n.val / 1408 = (grid0.coords t 1).val from fun e => hn (e.trans hni0)), if_neg hn]
    · rw [outsAt0_A m c t h0]
      dsimp only
      refine (sout0_A_1_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (xblk m c t) (yblk m c t) n).trans ?_
      rw [h0, partCol_zero]
      by_cases hn : n.val / 1408 = 0
      · rw [dif_pos (show n.val / 1408 = (grid0.coords t 2).val from hn.trans hmi0.symm), if_pos hn]
        exact (congrArg (fun z => min ⊤ z) (colTile_pt m c t n (hn.trans hmi0.symm))).trans (by rw [hniF])
      · rw [dif_neg (show ¬ n.val / 1408 = (grid0.coords t 2).val from fun e => hn (e.trans hmi0)), if_neg hn]
  · -- a later point of the batch: the scratches lowered over what the point before left
    have hlt : t.val - 1 < cfg0.N := Nat.lt_of_le_of_lt (Nat.sub_le _ _) t.isLt
    have ih := inv c ⟨t.val - 1, hlt⟩
    obtain ⟨hb', -, -⟩ := coords_val (⟨t.val - 1, hlt⟩ : Fin cfg0.N)
    have hbb : bOf (⟨t.val - 1, hlt⟩ : Fin cfg0.N) = bOf t := Fin.ext (by rw [hb, hb']; show (t.val - 1) / 9 = t.val / 9; omega)
    have ih1 : ∀ n : Fin 4224, ((outsAt0 m c (t.val - 1) hlt).2.2.1 : S4224x1.Idx → EReal) (ix2 n 0)
        = partRow (Dtab m c (bOf t)) ((t.val - 1) % 9) n := fun n => (ih.1 n).trans (by rw [hbb])
    have ih2 : ∀ n : Fin 4224, ((outsAt0 m c (t.val - 1) hlt).2.2.2 : S1x4224.Idx → EReal) (ix2 0 n)
        = partCol (Dtab m c (bOf t)) ((t.val - 1) % 9) n := fun n => (ih.2 n).trans (by rw [hbb])
    have hs : t.val % 9 = (t.val - 1) % 9 + 1 := by omega
    have hstep : (t.val - 1) % 9 + 1 = 3 * (niOf t).val + (miOf t).val := by rw [hni, hmi]; omega
    refine ⟨fun n => ?_, fun n => ?_⟩
    · rw [outsAt0_B m c t h0]
      dsimp only
      refine (sout0_B_0_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (xblk m c t) (yblk m c t)
        (outsAt0 m c (t.val - 1) hlt).2.2.1 (outsAt0 m c (t.val - 1) hlt).2.2.2 n).trans ?_
      rw [hs, partRow_step (Dtab m c (bOf t)) ((t.val - 1) % 9) (niOf t) (miOf t) hstep n, ih1 n]
      by_cases hn : n.val / 1408 = (niOf t).val
      · rw [dif_pos (show n.val / 1408 = (grid0.coords t 1).val from hn), if_pos hn]
        exact congrArg (fun z => min (partRow (Dtab m c (bOf t)) ((t.val - 1) % 9) n) z) (rowTile_pt m c t n hn)
      · rw [dif_neg (show ¬ n.val / 1408 = (grid0.coords t 1).val from hn), if_neg hn]
    · rw [outsAt0_B m c t h0]
      dsimp only
      refine (sout0_B_1_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (xblk m c t) (yblk m c t)
        (outsAt0 m c (t.val - 1) hlt).2.2.1 (outsAt0 m c (t.val - 1) hlt).2.2.2 n).trans ?_
      rw [hs, partCol_step (Dtab m c (bOf t)) ((t.val - 1) % 9) (niOf t) (miOf t) hstep n, ih2 n]
      by_cases hn : n.val / 1408 = (miOf t).val
      · rw [dif_pos (show n.val / 1408 = (grid0.coords t 2).val from hn), if_pos hn]
        exact congrArg (fun z => min (partCol (Dtab m c (bOf t)) ((t.val - 1) % 9) n) z) (colTile_pt m c t n hn)
      · rw [dif_neg (show ¬ n.val / 1408 = (grid0.coords t 2).val from hn), if_neg hn]
termination_by t.val
decreasing_by
  all_goals simp_wf
  all_goals omega

/-- Each output block is its scratch with a unit axis, at every point. -/
theorem out2_eq (c : Dev nD) (t : Fin cfg0.N) :
    (outsAt0 m c t.val t.isLt).1 = k0_pay3 (outsAt0 m c t.val t.isLt).2.2.1 := by
  by_cases h0 : t.val % 9 = 0
  · rw [outsAt0_A m c t h0]; dsimp only
    exact out0_A_2_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (xblk m c t) (yblk m c t)
  · rw [outsAt0_B m c t h0]; dsimp only
    exact out0_B_2_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (xblk m c t) (yblk m c t) _ _

theorem out3_eq (c : Dev nD) (t : Fin cfg0.N) :
    (outsAt0 m c t.val t.isLt).2.1 = k0_pay4 (outsAt0 m c t.val t.isLt).2.2.2 := by
  by_cases h0 : t.val % 9 = 0
  · rw [outsAt0_A m c t h0]; dsimp only
    exact out0_A_3_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (xblk m c t) (yblk m c t)
  · rw [outsAt0_B m c t h0]; dsimp only
    exact out0_B_3_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (xblk m c t) (yblk m c t) _ _

/-- What the last point of a batch leaves in the first output block: each point's least distance to the other padded
    cloud. -/
theorem out2_last (c : Dev nD) (t : Fin cfg0.N) (h8 : t.val % 9 = 8) (n : Fin 4224) :
    ((outsAt0 m c t.val t.isLt).1 : S1x4224x1.Idx → EReal) (ix3 0 n 0)
      = rowMin 4224 (cloud (m ((c : Thread nD τ).loc main_arg0)) (bOf t)) (cloud (m ((c : Thread nD τ).loc main_arg1)) (bOf t)) n := by
  rw [out2_eq, pay3_apply, (inv m c t).1 n, h8, partRow_last]
  unfold rowMin Dtab
  refine Finset.fold_congr (fun q _ => ?_)
  congr 1 <;> funext k
  · exact xarr_apply m c (bOf t) n k
  · exact yarr_apply m c (bOf t) q k

/-- And in the second output block. -/
theorem out3_last (c : Dev nD) (t : Fin cfg0.N) (h8 : t.val % 9 = 8) (n : Fin 4224) :
    ((outsAt0 m c t.val t.isLt).2.1 : S1x1x4224.Idx → EReal) (ix3 0 0 n)
      = colMin 4224 (cloud (m ((c : Thread nD τ).loc main_arg0)) (bOf t)) (cloud (m ((c : Thread nD τ).loc main_arg1)) (bOf t)) n := by
  rw [out3_eq, pay4_apply, (inv m c t).2 n, h8, partCol_last]
  unfold colMin Dtab
  refine Finset.fold_congr (fun q _ => ?_)
  congr 1 <;> funext k
  · exact xarr_apply m c (bOf t) q k
  · exact yarr_apply m c (bOf t) n k

end Cert.KernelIdeal.InvariantAt

end
-- ==== Proof.KernelArrays.lean ====
/-
  The two output arrays after the region. Each output window's block is the whole [4224, 1] (or [1, 4224]) slab of
  one batch, and the block is written back only after the last of the batch's nine grid points; the eight slabs tile
  the array. So if what the last point of every batch leaves in the window's buffer is that batch's slab of one
  whole-array function G, the array ends holding G.
-/
import proofs.«163228_j67577015435957_1_alg».proof.Proof.Gen.KernelIdeal.Frame
import proofs.«163228_j67577015435957_1_alg».proof.Proof.KernelBlocks
import Idealize.ShloMosaic.Lib.Pipeline.Value
import Idealize.ShloMosaic.Lib.ValueIdx

set_option maxRecDepth 16384

noncomputable section

namespace Cert.KernelIdeal.ArraysAfter

open Idealize.ShloMosaic Idealize.ShloMosaic.TcCoe Idealize.ShloMosaic.ValueIdx Idealize.SL.Sem
open Cert.KernelIdeal Cert.KernelIdeal.Gen Cert.KernelIdeal.BlocksAt

variable (m : (ℓ : Loc nD τ sig) → Buf (Elt Ideal) ℓ)

/-- The row-minima array after the region, at its literal type. -/
abbrev arr2 (c : Dev nD) : S8x4224x1.Idx → EReal := (dats m 0 c).arrAt 2 cfg0.N
/-- The column-minima array after the region, at its literal type. -/
abbrev arr3 (c : Dev nD) : S8x1x4224.Idx → EReal := (dats m 0 c).arrAt 3 cfg0.N

/-! ## The first output window: blocks [1, 4224, 1] of the [8, 4224, 1] array -/

/-- The block index of the first output window at grid point t is (b, 0, 0), b = t / 9 the point's batch coordinate
    (decided over the 72 points). -/
theorem idx_facts2 : ∀ t : Fin cfg0.N, win0_2.index t (0 : Fin 3) = (grid0.coords t 0).val
    ∧ win0_2.index t (0 : Fin 3) = t.val / 9 ∧ win0_2.index t (1 : Fin 3) = 0 ∧ win0_2.index t (2 : Fin 3) = 0 :=
  (by decide +kernel : ∀ t : Fin grid0.N, win0_2.index t (0 : Fin 3) = (grid0.coords t 0).val
    ∧ win0_2.index t (0 : Fin 3) = t.val / 9 ∧ win0_2.index t (1 : Fin 3) = 0 ∧ win0_2.index t (2 : Fin 3) = 0)

/-- Element (0, n, 0) of the block at point t sits at (b, n, 0) in the array: on each axis the block index times the
    block's extent plus the coordinate inside the block. -/
theorem emb2 (t : Fin cfg0.N) (n : Fin 4224) :
    ((cfg0.win 2).blk t).view.emb (ix3 0 n 0 : S1x4224x1.Idx) = (ix3 (bOf t) n 0 : S8x4224x1.Idx) := by
  obtain ⟨e0, -, e1, e2⟩ := idx_facts2 t
  funext a; apply Fin.ext
  match a with
  | ⟨0, _⟩ => show win0_2.index t (0 : Fin 3) * 1 + 1 * 0 = (grid0.coords t 0).val; omega
  | ⟨1, _⟩ => show win0_2.index t (1 : Fin 3) * 4224 + 1 * n.val = n.val; omega
  | ⟨2, _⟩ => show win0_2.index t (2 : Fin 3) * 1 + 1 * 0 = 0; omega

/-- What a flushing point writes back is its block of G: the block lies inside the array, so the write-back moves the
    whole staging buffer, and the buffer's element (0, n, 0) is G at (b, n, 0) by hypothesis. -/
theorem flushed2_eq (c : Dev nD) (G : S8x4224x1.Idx → EReal)
    (hG : ∀ t : Fin cfg0.N, t.val % 9 = 8 → ∀ n : Fin 4224,
      ((outsAt0 m c t.val t.isLt).1 : S1x4224x1.Idx → EReal) (ix3 0 n 0) = G (ix3 (bOf t) n 0))
    (t : Fin cfg0.N) (hf : (cfg0.win 2).flush t = true) :
    (dats m 0 c).flushed 2 t = ((cfg0.win 2).blk t).view.read (Elt Ideal) G := by
  show (cfg0.win 2).cut (grid0.coords t) ((dats m 0 c).after 2 t) = _
  rw [after0_2]
  funext y
  rw [View.read_apply]
  -- the block's extents on axes 0 and 2 are 1, so y = (0, n, 0)
  obtain ⟨n, rfl⟩ : ∃ n : Fin 4224, y = (ix3 0 n 0 : S1x4224x1.Idx) :=
    ⟨y 1, funext fun a => by
      match a with
      | ⟨0, _⟩ => exact Subsingleton.elim (α := Fin 1) _ _
      | ⟨1, _⟩ => rfl
      | ⟨2, _⟩ => exact Subsingleton.elim (α := Fin 1) _ _⟩
  rw [emb2]
  exact hG t ((flush0_2 t).mp hf) n

/-- An index of the array is in point t's block iff each coordinate is in the block's range on its axis. -/
theorem mem_blk2 (t : Fin cfg0.N) (i : S8x4224x1.Idx) :
    i ∈ ((cfg0.win 2).blk t).view.set ↔ ∀ a : Fin 3, win0_2.index t a * S1x4224x1.size a ≤ (i a).val
      ∧ (i a).val < win0_2.index t a * S1x4224x1.size a + S1x4224x1.size a := by
  show i ∈ ((View.whole main_v4_0).slice (win0_2.rect t)).set ↔ _
  rw [View.set_slice_whole, Rect.mem_set_unit]
  exact Iff.rfl

/-- The eight slabs tile the array: index (b, n, 0) lies in the block of the flushing point 9·b + 8, the last point
    of batch b. -/
theorem cover2 (i : S8x4224x1.Idx) :
    ∃ t : Fin cfg0.N, (cfg0.win 2).flush t = true ∧ i ∈ ((cfg0.win 2).blk t).view.set := by
  have hb : (i 0).val < 8 := (i 0).isLt
  have hn : (i 1).val < 4224 := (i 1).isLt
  have hz : (i 2).val < 1 := (i 2).isLt
  have hN : cfg0.N = 72 := N_0
  obtain ⟨t, ht⟩ : ∃ t : Fin cfg0.N, t.val = 9 * (i 0).val + 8 := ⟨⟨9 * (i 0).val + 8, by omega⟩, rfl⟩
  refine ⟨t, (flush0_2 t).mpr (by omega), ?_⟩
  rw [mem_blk2]
  obtain ⟨-, e0, e1, e2⟩ := idx_facts2 t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 4224 ≤ (i 1).val ∧ (i 1).val < win0_2.index t (1 : Fin 3) * 4224 + 4224; omega
  | ⟨2, _⟩ => show win0_2.index t (2 : Fin 3) * 1 ≤ (i 2).val ∧ (i 2).val < win0_2.index t (2 : Fin 3) * 1 + 1; omega

/-- If the last point of each batch leaves batch b's slab of G in the first output window's buffer, the first output
    array ends at G. -/
theorem arr2_eq (c : Dev nD) (G : S8x4224x1.Idx → EReal)
    (hG : ∀ t : Fin cfg0.N, t.val % 9 = 8 → ∀ n : Fin 4224,
      ((outsAt0 m c t.val t.isLt).1 : S1x4224x1.Idx → EReal) (ix3 0 n 0) = G (ix3 (bOf t) n 0)) :
    arr2 m c = G :=
  (dats m 0 c).arrAt_eq_of_cover 2 G (fun t hf => flushed2_eq m c G hG t hf) cover2

/-! ## The second output window: blocks [1, 1, 4224] of the [8, 1, 4224] array -/

/-- The block index of the second output window at grid point t is (b, 0, 0), b = t / 9 (decided over the 72 points). -/
theorem idx_facts3 : ∀ t : Fin cfg0.N, win0_3.index t (0 : Fin 3) = (grid0.coords t 0).val
    ∧ win0_3.index t (0 : Fin 3) = t.val / 9 ∧ win0_3.index t (1 : Fin 3) = 0 ∧ win0_3.index t (2 : Fin 3) = 0 :=
  (by decide +kernel : ∀ t : Fin grid0.N, win0_3.index t (0 : Fin 3) = (grid0.coords t 0).val
    ∧ win0_3.index t (0 : Fin 3) = t.val / 9 ∧ win0_3.index t (1 : Fin 3) = 0 ∧ win0_3.index t (2 : Fin 3) = 0)

/-- Element (0, 0, n) of the block at point t sits at (b, 0, n) in the array. -/
theorem emb3 (t : Fin cfg0.N) (n : Fin 4224) :
    ((cfg0.win 3).blk t).view.emb (ix3 0 0 n : S1x1x4224.Idx) = (ix3 (bOf t) 0 n : S8x1x4224.Idx) := by
  obtain ⟨e0, -, e1, e2⟩ := idx_facts3 t
  funext a; apply Fin.ext
  match a with
  | ⟨0, _⟩ => show win0_3.index t (0 : Fin 3) * 1 + 1 * 0 = (grid0.coords t 0).val; omega
  | ⟨1, _⟩ => show win0_3.index t (1 : Fin 3) * 1 + 1 * 0 = 0; omega
  | ⟨2, _⟩ => show win0_3.index t (2 : Fin 3) * 4224 + 1 * n.val = n.val; omega

/-- What a flushing point writes back to the second output array is its block of G. -/
theorem flushed3_eq (c : Dev nD) (G : S8x1x4224.Idx → EReal)
    (hG : ∀ t : Fin cfg0.N, t.val % 9 = 8 → ∀ n : Fin 4224,
      ((outsAt0 m c t.val t.isLt).2.1 : S1x1x4224.Idx → EReal) (ix3 0 0 n) = G (ix3 (bOf t) 0 n))
    (t : Fin cfg0.N) (hf : (cfg0.win 3).flush t = true) :
    (dats m 0 c).flushed 3 t = ((cfg0.win 3).blk t).view.read (Elt Ideal) G := by
  show (cfg0.win 3).cut (grid0.coords t) ((dats m 0 c).after 3 t) = _
  rw [after0_3]
  funext y
  rw [View.read_apply]
  -- the block's extents on axes 0 and 1 are 1, so y = (0, 0, n)
  obtain ⟨n, rfl⟩ : ∃ n : Fin 4224, y = (ix3 0 0 n : S1x1x4224.Idx) :=
    ⟨y 2, funext fun a => by
      match a with
      | ⟨0, _⟩ => exact Subsingleton.elim (α := Fin 1) _ _
      | ⟨1, _⟩ => exact Subsingleton.elim (α := Fin 1) _ _
      | ⟨2, _⟩ => rfl⟩
  rw [emb3]
  exact hG t ((flush0_3 t).mp hf) n

/-- An index of the second array is in point t's block iff each coordinate is in the block's range on its axis. -/
theorem mem_blk3 (t : Fin cfg0.N) (i : S8x1x4224.Idx) :
    i ∈ ((cfg0.win 3).blk t).view.set ↔ ∀ a : Fin 3, win0_3.index t a * S1x1x4224.size a ≤ (i a).val
      ∧ (i a).val < win0_3.index t a * S1x1x4224.size a + S1x1x4224.size a := by
  show i ∈ ((View.whole main_v4_1).slice (win0_3.rect t)).set ↔ _
  rw [View.set_slice_whole, Rect.mem_set_unit]
  exact Iff.rfl

/-- Index (b, 0, n) of the second array lies in the block of the flushing point 9·b + 8. -/
theorem cover3 (i : S8x1x4224.Idx) :
    ∃ t : Fin cfg0.N, (cfg0.win 3).flush t = true ∧ i ∈ ((cfg0.win 3).blk t).view.set := by
  have hb : (i 0).val < 8 := (i 0).isLt
  have hz : (i 1).val < 1 := (i 1).isLt
  have hn : (i 2).val < 4224 := (i 2).isLt
  have hN : cfg0.N = 72 := N_0
  obtain ⟨t, ht⟩ : ∃ t : Fin cfg0.N, t.val = 9 * (i 0).val + 8 := ⟨⟨9 * (i 0).val + 8, by omega⟩, rfl⟩
  refine ⟨t, (flush0_3 t).mpr (by omega), ?_⟩
  rw [mem_blk3]
  obtain ⟨-, e0, e1, e2⟩ := idx_facts3 t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 4224 ≤ (i 2).val ∧ (i 2).val < win0_3.index t (2 : Fin 3) * 4224 + 4224; omega

/-- The same for the second output window and array. -/
theorem arr3_eq (c : Dev nD) (G : S8x1x4224.Idx → EReal)
    (hG : ∀ t : Fin cfg0.N, t.val % 9 = 8 → ∀ n : Fin 4224,
      ((outsAt0 m c t.val t.isLt).2.1 : S1x1x4224.Idx → EReal) (ix3 0 0 n) = G (ix3 (bOf t) 0 n)) :
    arr3 m c = G :=
  (dats m 0 c).arrAt_eq_of_cover 3 G (fun t hf => flushed3_eq m c G hG t hf) cover3

end Cert.KernelIdeal.ArraysAfter

end
-- ==== Proof.KernelTail.lean ====
/-
  The host lines after the region, as one term of the two output arrays: each array is reshaped to [8, 4224]; per
  batch its float sum is divided by the number of its entries above zero (at least one), the two quotients are
  added, and the first result is the mean of those eight numbers, the second the eight numbers as a [1, 8] array.
-/
import proofs.«163228_j67577015435957_1_alg».proof.Proof.Gen.KernelIdeal.Frame
import proofs.«163228_j67577015435957_1_alg».proof.Proof.KernelArrays
import Idealize.ShloMosaic.Lib.Pipeline.Value
import Idealize.ShloMosaic.Lib.ValueIdx
import Idealize.ShloMosaic.Lib.StableHlo.Run

set_option maxRecDepth 16384

noncomputable section

namespace Cert.KernelIdeal.TailAfter

open Idealize.ShloMosaic Idealize.ShloMosaic.TcCoe Idealize.ShloMosaic.ValueIdx Idealize.SL.Sem
open Cert.KernelIdeal Cert.KernelIdeal.Gen Cert.KernelIdeal.ArraysAfter

variable (m : (ℓ : Loc nD τ sig) → Buf (Elt Ideal) ℓ)

/-- One array's share of a batch's score: its float sum over the number of its positive entries, at least one. -/
def share (d : FVec Ideal S8x4224 .f32) : FVec Ideal S8 .f32 :=
  Host.divf (Host.reduceAdd d (constant (F := Ideal) S_ .f32 0x00000000#32) reducesTo_S8x4224_S8_d1 h_S_)
    (sitofp .f32 (maxsi
      (Host.reduce IntOp.addi
        (extui 32 (cmpf .ogt d (broadcastInDim S8x4224 ![] bcast_S_S8x4224 (constant (F := Ideal) S_ .f32 0x00000000#32))) natLt_1_32)
        (constantI S_ 32 0#32) reducesTo_S8x4224_S8_d1 h_S_)
      (broadcastInDim S8 ![] bcast_S_S8 (constantI S_ 32 1#32))))

/-- The eight per-batch scores from the two [8, 4224] arrays of nearest-neighbour distances. -/
def scores (d1 d2 : FVec Ideal S8x4224 .f32) : FVec Ideal S8 .f32 := addf (share d1) (share d2)

/-- The mean of the eight scores, as the program computes it (the sum from zero over the pattern of 8.0). -/
def meanOf (s : FVec Ideal S8 .f32) : FVec Ideal S_ .f32 :=
  shapeCast S_ (Host.divf (Host.reduceAdd (shapeCast S1x8 s shapeCasts_S8_S1x8) (constant (F := Ideal) S_ .f32 0x00000000#32) reducesTo_S1x8_S1_d1 h_S_)
    (broadcastInDim S1 ![] bcast_S_S1 (constant (F := Ideal) S_ .f32 0x41000000#32))) shapeCasts_S1_S_

/-- The two [8, 4224] arrays the tail computes on. -/
abbrev dist1 (c : Dev nD) : FVec Ideal S8x4224 .f32 := shapeCast S8x4224 (arr2 m c) shapeCasts_S8x4224x1_S8x4224
abbrev dist2 (c : Dev nD) : FVec Ideal S8x4224 .f32 := shapeCast S8x4224 (arr3 m c) shapeCasts_S8x1x4224_S8x4224

/-! ### The thirty-six lines in six stretches

The lines after the region are cut into six consecutive stretches. What each stretch leaves in the buffers the later
ones read is stated over an ARBITRARY valuation `W` of the buffers before it (and at any float semantics `F`, as the
lines themselves are), and the two results are those facts chained. -/

section Stretches

open Idealize.ShloMosaic.StableHlo

variable {F : FTy → Type} [FloatOps F]

/-- Lines run one stretch after the other are their concatenation run as one. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- The number of an array's entries above zero per batch, at least one. -/
def count (d : FVec F S8x4224 .f32) : IVec S8 32 :=
  maxsi
    (Host.reduce IntOp.addi
      (extui 32 (cmpf .ogt d (broadcastInDim S8x4224 ![] bcast_S_S8x4224 (constant (F := F) S_ .f32 0x00000000#32))) natLt_1_32)
      (constantI S_ 32 0#32) reducesTo_S8x4224_S8_d1 h_S_)
    (broadcastInDim S8 ![] bcast_S_S8 (constantI S_ 32 1#32))

/-- Lines 1–2: the two output arrays reshaped to [8, 4224]. -/
def opsA : List (HloOp τ sig (Elt F)) :=
  [ StableHlo.reshape main_v4_0 main_v5 rfl shapeCasts_S8x4224x1_S8x4224,
    StableHlo.reshape main_v4_1 main_v6 rfl shapeCasts_S8x1x4224_S8x4224 ]

/-- Lines 3–11: the first array's count. -/
def opsB : List (HloOp τ sig (Elt F)) :=
  [ StableHlo.nullary main_cst_1 (constant S_ .f32 0x00000000#32),
    StableHlo.unary main_cst_1 main_v7 (broadcastInDim S8x4224 ![] bcast_S_S8x4224 : (⟨S_, .f32⟩ : BufTy).Contents (Elt F) → (⟨S8x4224, .f32⟩ : BufTy).Contents (Elt F)),
    StableHlo.binary main_v5 main_v7 main_v8 (cmpf .ogt : (⟨S8x4224, .f32⟩ : BufTy).Contents (Elt F) → (⟨S8x4224, .f32⟩ : BufTy).Contents (Elt F) → (⟨S8x4224, .i1⟩ : BufTy).Contents (Elt F)),
    StableHlo.unary main_v8 main_v9 ((extui 32 · natLt_1_32) : (⟨S8x4224, .i1⟩ : BufTy).Contents (Elt F) → (⟨S8x4224, .i32⟩ : BufTy).Contents (Elt F)),
    StableHlo.nullary main_c (constantI S_ 32 0#32),
    StableHlo.binary main_v9 main_c main_v10 ((fun x v => Host.reduce IntOp.addi x v reducesTo_S8x4224_S8_d1 h_S_) : (⟨S8x4224, .i32⟩ : BufTy).Contents (Elt F) → (⟨S_, .i32⟩ : BufTy).Contents (Elt F) → (⟨S8, .i32⟩ : BufTy).Contents (Elt F)),
    StableHlo.nullary main_c_2 (constantI S_ 32 1#32),
    StableHlo.unary main_c_2 main_v11 (broadcastInDim S8 ![] bcast_S_S8 : (⟨S_, .i32⟩ : BufTy).Contents (Elt F) → (⟨S8, .i32⟩ : BufTy).Contents (Elt F)),
    StableHlo.binary main_v10 main_v11 main_v12 (maxsi : (⟨S8, .i32⟩ : BufTy).Contents (Elt F) → (⟨S8, .i32⟩ : BufTy).Contents (Elt F) → (⟨S8, .i32⟩ : BufTy).Contents (Elt F)) ]

/-- Lines 12–20: the second array's count. -/
def opsC : List (HloOp τ sig (Elt F)) :=
  [ StableHlo.nullary main_cst_3 (constant S_ .f32 0x00000000#32),
    StableHlo.unary main_cst_3 main_v13 (broadcastInDim S8x4224 ![] bcast_S_S8x4224 : (⟨S_, .f32⟩ : BufTy).Contents (Elt F) → (⟨S8x4224, .f32⟩ : BufTy).Contents (Elt F)),
    StableHlo.binary main_v6 main_v13 main_v14 (cmpf .ogt : (⟨S8x4224, .f32⟩ : BufTy).Contents (Elt F) → (⟨S8x4224, .f32⟩ : BufTy).Contents (Elt F) → (⟨S8x4224, .i1⟩ : BufTy).Contents (Elt F)),
    StableHlo.unary main_v14 main_v15 ((extui 32 · natLt_1_32) : (⟨S8x4224, .i1⟩ : BufTy).Contents (Elt F) → (⟨S8x4224, .i32⟩ : BufTy).Contents (Elt F)),
    StableHlo.nullary main_c_4 (constantI S_ 32 0#32),
    StableHlo.binary main_v15 main_c_4 main_v16 ((fun x v => Host.reduce IntOp.addi x v reducesTo_S8x4224_S8_d1 h_S_) : (⟨S8x4224, .i32⟩ : BufTy).Contents (Elt F) → (⟨S_, .i32⟩ : BufTy).Contents (Elt F) → (⟨S8, .i32⟩ : BufTy).Contents (Elt F)),
    StableHlo.nullary main_c_5 (constantI S_ 32 1#32),
    StableHlo.unary main_c_5 main_v17 (broadcastInDim S8 ![] bcast_S_S8 : (⟨S_, .i32⟩ : BufTy).Contents (Elt F) → (⟨S8, .i32⟩ : BufTy).Contents (Elt F)),
    StableHlo.binary main_v16 main_v17 main_v18 (maxsi : (⟨S8, .i32⟩ : BufTy).Contents (Elt F) → (⟨S8, .i32⟩ : BufTy).Contents (Elt F) → (⟨S8, .i32⟩ : BufTy).Contents (Elt F)) ]

/-- Lines 21–29: each array's float sum over its count, and the two quotients added. -/
def opsD : List (HloOp τ sig (Elt F)) :=
  [ StableHlo.nullary main_cst_6 (constant S_ .f32 0x00000000#32),
    StableHlo.binary main_v5 main_cst_6 main_v19 ((fun x v => Host.reduceAdd x v reducesTo_S8x4224_S8_d1 h_S_) : (⟨S8x4224, .f32⟩ : BufTy).Contents (Elt F) → (⟨S_, .f32⟩ : BufTy).Contents (Elt F) → (⟨S8, .f32⟩ : BufTy).Contents (Elt F)),
    StableHlo.unary main_v12 main_v20 (sitofp .f32 : (⟨S8, .i32⟩ : BufTy).Contents (Elt F) → (⟨S8, .f32⟩ : BufTy).Contents (Elt F)),
    StableHlo.binary main_v19 main_v20 main_v21 (Host.divf : (⟨S8, .f32⟩ : BufTy).Contents (Elt F) → (⟨S8, .f32⟩ : BufTy).Contents (Elt F) → (⟨S8, .f32⟩ : BufTy).Contents (Elt F)),
    StableHlo.nullary main_cst_7 (constant S_ .f32 0x00000000#32),
    StableHlo.binary main_v6 main_cst_7 main_v22 ((fun x v => Host.reduceAdd x v reducesTo_S8x4224_S8_d1 h_S_) : (⟨S8x4224, .f32⟩ : BufTy).Contents (Elt F) → (⟨S_, .f32⟩ : BufTy).Contents (Elt F) → (⟨S8, .f32⟩ : BufTy).Contents (Elt F)),
    StableHlo.unary main_v18 main_v23 (sitofp .f32 : (⟨S8, .i32⟩ : BufTy).Contents (Elt F) → (⟨S8, .f32⟩ : BufTy).Contents (Elt F)),
    StableHlo.binary main_v22 main_v23 main_v24 (Host.divf : (⟨S8, .f32⟩ : BufTy).Contents (Elt F) → (⟨S8, .f32⟩ : BufTy).Contents (Elt F) → (⟨S8, .f32⟩ : BufTy).Contents (Elt F)),
    StableHlo.binary main_v21 main_v24 main_v25 (addf : (⟨S8, .f32⟩ : BufTy).Contents (Elt F) → (⟨S8, .f32⟩ : BufTy).Contents (Elt F) → (⟨S8, .f32⟩ : BufTy).Contents (Elt F)) ]

/-- Line 30: the eight scores as a [1, 8] array. -/
def opsE : List (HloOp τ sig (Elt F)) :=
  [ StableHlo.reshape main_v25 main_v26 rfl shapeCasts_S8_S1x8 ]

/-- Lines 31–36: their sum over the pattern of 8.0, as a scalar. -/
def opsG : List (HloOp τ sig (Elt F)) :=
  [ StableHlo.nullary main_cst_8 (constant S_ .f32 0x00000000#32),
    StableHlo.binary main_v26 main_cst_8 main_v27 ((fun x v => Host.reduceAdd x v reducesTo_S1x8_S1_d1 h_S_) : (⟨S1x8, .f32⟩ : BufTy).Contents (Elt F) → (⟨S_, .f32⟩ : BufTy).Contents (Elt F) → (⟨S1, .f32⟩ : BufTy).Contents (Elt F)),
    StableHlo.nullary main_cst_9 (constant S_ .f32 0x41000000#32),
    StableHlo.unary main_cst_9 main_v28 (broadcastInDim S1 ![] bcast_S_S1 : (⟨S_, .f32⟩ : BufTy).Contents (Elt F) → (⟨S1, .f32⟩ : BufTy).Contents (Elt F)),
    StableHlo.binary main_v27 main_v28 main_v29 (Host.divf : (⟨S1, .f32⟩ : BufTy).Contents (Elt F) → (⟨S1, .f32⟩ : BufTy).Contents (Elt F) → (⟨S1, .f32⟩ : BufTy).Contents (Elt F)),
    StableHlo.reshape main_v29 main_v30 rfl shapeCasts_S1_S_ ]

/-- The thirty-six lines are the six stretches in order. -/
theorem hostOps1_eq :
    (hostOps1 : List (HloOp τ sig (Elt F))) = opsA ++ (opsB ++ (opsC ++ (opsD ++ (opsE ++ opsG)))) := rfl

variable (W : Valuation τ sig (Elt F))

theorem opsA_v5 : StableHlo.after opsA W (Proc.devRef .tc main_v5)
    = shapeCast S8x4224 (W (Proc.devRef .tc main_v4_0)) shapeCasts_S8x4224x1_S8x4224 := by
  unfold opsA; after_results <;> rfl
theorem opsA_v6 : StableHlo.after opsA W (Proc.devRef .tc main_v6)
    = shapeCast S8x4224 (W (Proc.devRef .tc main_v4_1)) shapeCasts_S8x1x4224_S8x4224 := by
  unfold opsA; after_results <;> rfl

theorem opsB_v12 : StableHlo.after opsB W (Proc.devRef .tc main_v12) = count (W (Proc.devRef .tc main_v5)) := by
  unfold opsB; after_results <;> rfl
theorem opsB_v5 : StableHlo.after opsB W (Proc.devRef .tc main_v5) = W (Proc.devRef .tc main_v5) := by
  unfold opsB; after_results <;> rfl
theorem opsB_v6 : StableHlo.after opsB W (Proc.devRef .tc main_v6) = W (Proc.devRef .tc main_v6) := by
  unfold opsB; after_results <;> rfl

theorem opsC_v18 : StableHlo.after opsC W (Proc.devRef .tc main_v18) = count (W (Proc.devRef .tc main_v6)) := by
  unfold opsC; after_results <;> rfl
theorem opsC_v12 : StableHlo.after opsC W (Proc.devRef .tc main_v12) = W (Proc.devRef .tc main_v12) := by
  unfold opsC; after_results <;> rfl
theorem opsC_v5 : StableHlo.after opsC W (Proc.devRef .tc main_v5) = W (Proc.devRef .tc main_v5) := by
  unfold opsC; after_results <;> rfl
theorem opsC_v6 : StableHlo.after opsC W (Proc.devRef .tc main_v6) = W (Proc.devRef .tc main_v6) := by
  unfold opsC; after_results <;> rfl

theorem opsD_v25 : StableHlo.after opsD W (Proc.devRef .tc main_v25)
    = addf
        (Host.divf (Host.reduceAdd (W (Proc.devRef .tc main_v5)) (constant (F := F) S_ .f32 0x00000000#32) reducesTo_S8x4224_S8_d1 h_S_)
          (sitofp .f32 (W (Proc.devRef .tc main_v12))))
        (Host.divf (Host.reduceAdd (W (Proc.devRef .tc main_v6)) (constant (F := F) S_ .f32 0x00000000#32) reducesTo_S8x4224_S8_d1 h_S_)
          (sitofp .f32 (W (Proc.devRef .tc main_v18)))) := by
  unfold opsD; after_results <;> rfl

theorem opsE_v26 : StableHlo.after opsE W (Proc.devRef .tc main_v26)
    = shapeCast S1x8 (W (Proc.devRef .tc main_v25)) shapeCasts_S8_S1x8 := by
  unfold opsE; after_results <;> rfl

theorem opsG_v26 : StableHlo.after opsG W (Proc.devRef .tc main_v26) = W (Proc.devRef .tc main_v26) := by
  unfold opsG; after_results <;> rfl
theorem opsG_v30 : StableHlo.after opsG W (Proc.devRef .tc main_v30)
    = shapeCast S_ (Host.divf (Host.reduceAdd (W (Proc.devRef .tc main_v26)) (constant (F := F) S_ .f32 0x00000000#32) reducesTo_S1x8_S1_d1 h_S_)
        (broadcastInDim S1 ![] bcast_S_S1 (constant (F := F) S_ .f32 0x41000000#32))) shapeCasts_S1_S_ := by
  unfold opsG; after_results <;> rfl

/-- After the first thirty lines the [1, 8] buffer holds, reshaped, the sum of the two arrays' quotients. -/
theorem upToE_v26 :
    StableHlo.after opsE (StableHlo.after opsD (StableHlo.after opsC (StableHlo.after opsB (StableHlo.after opsA W))))
        (Proc.devRef .tc main_v26)
      = shapeCast S1x8
          (addf
            (Host.divf (Host.reduceAdd (shapeCast S8x4224 (W (Proc.devRef .tc main_v4_0)) shapeCasts_S8x4224x1_S8x4224)
                (constant (F := F) S_ .f32 0x00000000#32) reducesTo_S8x4224_S8_d1 h_S_)
              (sitofp .f32 (count (shapeCast S8x4224 (W (Proc.devRef .tc main_v4_0)) shapeCasts_S8x4224x1_S8x4224))))
            (Host.divf (Host.reduceAdd (shapeCast S8x4224 (W (Proc.devRef .tc main_v4_1)) shapeCasts_S8x1x4224_S8x4224)
                (constant (F := F) S_ .f32 0x00000000#32) reducesTo_S8x4224_S8_d1 h_S_)
              (sitofp .f32 (count (shapeCast S8x4224 (W (Proc.devRef .tc main_v4_1)) shapeCasts_S8x1x4224_S8x4224)))))
          shapeCasts_S8_S1x8 := by
  rw [opsE_v26, opsD_v25, opsC_v5, opsC_v12, opsC_v6, opsC_v18, opsB_v5, opsB_v12, opsB_v6, opsA_v5, opsA_v6]

end Stretches

/-- The valuation the tail starts from reads the two output arrays as the region left them. -/
theorem start_v4_0 (c : Dev nD) :
    Pipeline.withArrays spec0 c (V0 m c) (fun w => (dats m 0 c).arrAt w cfg0.N) (Proc.devRef .tc main_v4_0) = arr2 m c :=
  Pipeline.withArrays_arr spec0 launch0.win.arr_inj c _ _ 2
theorem start_v4_1 (c : Dev nD) :
    Pipeline.withArrays spec0 c (V0 m c) (fun w => (dats m 0 c).arrAt w cfg0.N) (Proc.devRef .tc main_v4_1) = arr3 m c :=
  Pipeline.withArrays_arr spec0 launch0.win.arr_inj c _ _ 3

/-- The second result: the scores as a [1, 8] array. -/
theorem tail_v26 (c : Dev nD) :
    (Pipeline.afterTail₀ cfgs (dats m) 0 (V0 m) [hostOps1] c main_v26 : S1x8.Idx → EReal)
      = shapeCast S1x8 (scores (dist1 m c) (dist2 m c)) shapeCasts_S8_S1x8 := by
  unfold Pipeline.afterTail₀
  show StableHlo.after (List.flatten [hostOps1]) (Pipeline.withArrays spec0 c (V0 m c) (fun w => (dats m 0 c).arrAt w cfg0.N)) (Proc.devRef .tc main_v26) = _
  simp only [List.flatten_cons, List.flatten_nil, List.append_nil]
  rw [hostOps1_eq, after_append, after_append, after_append, after_append, after_append, opsG_v26, upToE_v26,
    start_v4_0, start_v4_1]
  rfl

/-- The first result: their mean. -/
theorem tail_v30 (c : Dev nD) :
    (Pipeline.afterTail₀ cfgs (dats m) 0 (V0 m) [hostOps1] c main_v30 : S_.Idx → EReal)
      = meanOf (scores (dist1 m c) (dist2 m c)) := by
  unfold Pipeline.afterTail₀
  show StableHlo.after (List.flatten [hostOps1]) (Pipeline.withArrays spec0 c (V0 m c) (fun w => (dats m 0 c).arrAt w cfg0.N)) (Proc.devRef .tc main_v30) = _
  simp only [List.flatten_cons, List.flatten_nil, List.append_nil]
  rw [hostOps1_eq, after_append, after_append, after_append, after_append, after_append, opsG_v30, upToE_v26,
    start_v4_0, start_v4_1]
  rfl

end Cert.KernelIdeal.TailAfter

end
-- ==== Proof.RefValue.lean ====
/-
  The reference's two arrays of nearest-neighbour distances, read at an index: over clouds padded by ONE pad
  point to 4097 points, entry (b, n) of the first is the least clipped squared distance of point n of the first
  cloud of batch b to the points of the second, and entry (b, m) of the second the least distance of point m of the
  second cloud to the points of the first.
-/
import proofs.«163228_j67577015435957_1_alg».proof.Proof.Gen.ReferenceIdeal.Read
import proofs.«163228_j67577015435957_1_alg».proof.Proof.ChamferSpec
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read Cert.Chamfer

/-- Batch b of an [8, 4096, 3] array as a cloud of 4096 points. -/
def cloud (x : S8x4096x3.Idx → EReal) (b : Fin 8) : Fin 4096 → Fin 3 → EReal := fun n k => x (ix3 b n k)

/-- The constant piece of the padding reads the pad value everywhere. -/
theorem v0_apply (i : S8x1x3.Idx) : val_main_v0 (F := Ideal) i = pad := by
  rw [val_main_v0_apply, val_main_cst_apply, Ideal.ofBits_def]
  rfl

/-- A cloud joined with one pad point along the point axis, read at (b, n, k): the cloud's point below 4096,
    the pad point at 4096. -/
theorem concat_pad_apply (x : (⟨S8x4096x3, .f32⟩ : BufTy).Contents (Elt Ideal)) (b : Fin 8) (n : Fin 4097) (k : Fin 3) :
    concatenate S8x4097x3 1 [⟨S8x4096x3, x⟩, ⟨S8x1x3, (val_main_v0 (F := Ideal))⟩]
        concatenates_S8x4096x3_S8x1x3_S8x4097x3_d1 (ix3 b n k)
      = padTo 4097 (cloud x b) n k := by
  by_cases h : n.val < 4096
  · rw [padTo_lt _ _ _ h]
    exact concatenate_pair_apply_left 1 x _ _ (ix3 b n k) rfl (ix3 b ⟨n.val, h⟩ k)
      (fun c => by match c with | ⟨0, _⟩ => rfl | ⟨1, _⟩ => rfl | ⟨2, _⟩ => rfl)
  · rw [padTo_ge _ _ _ h]
    have hn : n.val = 4096 := by have := n.isLt; omega
    rw [concatenate_pair_apply_right (s₁ := S8x4096x3) (s₂ := S8x1x3) 1 x (val_main_v0 (F := Ideal)) _ (ix3 b n k) rfl rfl (ix3 b (⟨0, Nat.one_pos⟩ : Fin 1) k)
      (fun c hc => by
        match c with
        | ⟨0, _⟩ => rfl
        | ⟨1, _⟩ => exact absurd rfl hc
        | ⟨2, _⟩ => rfl)
      (by show 0 + 4096 = n.val; omega)]
    exact v0_apply _

/-- The first padded cloud at (b, n, k). -/
theorem v1_apply (x0 : (⟨S8x4096x3, .f32⟩ : BufTy).Contents (Elt Ideal)) (b : Fin 8) (n : Fin 4097) (k : Fin 3) :
    val_main_v1 (F := Ideal) x0 (ix3 b n k) = padTo 4097 (cloud x0 b) n k :=
  concat_pad_apply x0 b n k

/-- The second padded cloud at (b, m, k). -/
theorem v2_apply (x1 : (⟨S8x4096x3, .f32⟩ : BufTy).Contents (Elt Ideal)) (b : Fin 8) (m : Fin 4097) (k : Fin 3) :
    val_main_v2 (F := Ideal) x1 (ix3 b m k) = padTo 4097 (cloud x1 b) m k :=
  concat_pad_apply x1 b m k

/-- The first cloud's squared norms, spread over the table: at (b, n, m) the squared norm of padded point n. -/
theorem v10_apply (x0 : (⟨S8x4096x3, .f32⟩ : BufTy).Contents (Elt Ideal)) (b : Fin 8) (n m : Fin 4097) :
    val_main_v10 (F := Ideal) x0 (ix3 b n m) = Cert.Chamfer.sq (padTo 4097 (cloud x0 b) n) := by
  rw [val_main_v10_apply, val_main_v8_apply, val_main_v4_apply, val_main_cst_0_apply, Ideal.ofBits_def,
    Ideal.ofBits_zero_f32, zero_add]
  unfold Cert.Chamfer.sq
  refine Finset.sum_congr rfl fun k _ => ?_
  have e : idx_main_v4 (idx_main_v8 (idx_main_v10 (ix3 b n m))) k = ix3 b n k :=
    funext fun a => Fin.ext (by match a with | ⟨0, _⟩ => rfl | ⟨1, _⟩ => rfl | ⟨2, _⟩ => rfl)
  rw [val_main_v3_apply, Ideal.mulf_def, e, v1_apply]

/-- The second cloud's squared norms, spread over the table: at (b, n, m) the squared norm of padded point m. -/
theorem v11_apply (x1 : (⟨S8x4096x3, .f32⟩ : BufTy).Contents (Elt Ideal)) (b : Fin 8) (n m : Fin 4097) :
    val_main_v11 (F := Ideal) x1 (ix3 b n m) = Cert.Chamfer.sq (padTo 4097 (cloud x1 b) m) := by
  rw [val_main_v11_apply, val_main_v9_apply, val_main_v6_apply, val_main_cst_1_apply, Ideal.ofBits_def,
    Ideal.ofBits_zero_f32, zero_add]
  unfold Cert.Chamfer.sq
  refine Finset.sum_congr rfl fun k _ => ?_
  have e : idx_main_v6 (idx_main_v9 (idx_main_v11 (ix3 b n m))) k = ix3 b m k :=
    funext fun a => Fin.ext (by match a with | ⟨0, _⟩ => rfl | ⟨1, _⟩ => rfl | ⟨2, _⟩ => rfl)
  rw [val_main_v5_apply, Ideal.mulf_def, e, v2_apply]

/-- The table of inner products: at (b, n, m) the inner product of padded points n and m. -/
theorem v7_apply (x0 x1 : (⟨S8x4096x3, .f32⟩ : BufTy).Contents (Elt Ideal)) (b : Fin 8) (n m : Fin 4097) :
    val_main_v7 (F := Ideal) x0 x1 (ix3 b n m)
      = dot (padTo 4097 (cloud x0 b) n) (padTo 4097 (cloud x1 b) m) := by
  rw [val_main_v7_apply]
  unfold dot
  refine Finset.sum_congr rfl fun k _ => ?_
  have el : lidx_main_v7 (ix3 b n m) k = ix3 b n k :=
    funext fun a => Fin.ext (by match a with | ⟨0, _⟩ => rfl | ⟨1, _⟩ => rfl | ⟨2, _⟩ => rfl)
  have er : ridx_main_v7 (ix3 b n m) k = ix3 b m k :=
    funext fun a => Fin.ext (by match a with | ⟨0, _⟩ => rfl | ⟨1, _⟩ => rfl | ⟨2, _⟩ => rfl)
  rw [el, er, v1_apply, v2_apply]

/-- The reference's table of clipped squared distances at (b, n, m). -/
theorem v17_apply (x0 x1 : (⟨S8x4096x3, .f32⟩ : BufTy).Contents (Elt Ideal)) (b : Fin 8) (n m : Fin 4097) :
    val_main_v17 (F := Ideal) x0 x1 (ix3 b n m)
      = d2 (padTo 4097 (cloud x0 b) n) (padTo 4097 (cloud x1 b) m) := by
  -- the factor of the cross term and the clipping bound are constants spread over the table
  have htwo : val_main_v13 (F := Ideal) (ix3 b n m) = two := by
    rw [val_main_v13_apply, val_main_cst_2_apply, Ideal.ofBits_def]; rfl
  have hzero : val_main_v16 (F := Ideal) (ix3 b n m) = 0 := by
    rw [val_main_v16_apply, val_main_cst_3_apply, Ideal.ofBits_def, Ideal.ofBits_zero_f32]
  -- max ((|u|² + |v|²) − 2·⟨u, v⟩) 0, operation by operation
  rw [val_main_v17_apply, val_main_v15_apply, val_main_v12_apply, val_main_v14_apply, v10_apply, v11_apply, v7_apply,
    htwo, hzero, Ideal.maximumf_def, Ideal.subf_def, Ideal.addf_def, Ideal.mulf_def]
  rfl

/-- Dropping the last axis of the distance table leaves the [8, 4097] shape. -/
theorem reduces_d2 : S8x4097x4097.Reduces [2] S8x4097 := by decide
/-- Dropping the middle axis of the distance table leaves the [8, 4097] shape. -/
theorem reduces_d1 : S8x4097x4097.Reduces [1] S8x4097 := by decide

/-- The reference's row minima. -/
theorem v18_apply (x0 x1 : (⟨S8x4096x3, .f32⟩ : BufTy).Contents (Elt Ideal)) (b : Fin 8) (n : Fin 4097) :
    val_main_v18 (F := Ideal) x0 x1 (ix2 b n) = rowMin 4097 (cloud x0 b) (cloud x1 b) n := by
  unfold val_main_v18
  -- a minimum reduction over the last axis is the fold of min from the initial value over that axis's coordinates
  rw [Host.reduce_eq_fold_single (FloatOps.minimumf (F := Ideal) (φ := .f32)) (val_main_v17 (F := Ideal) x0 x1)
    (val_main_cst_4 (F := Ideal)) reducesTo_S8x4097x4097_S8x4097_d2 reduces_d2 h_S_ (ix2 b n)]
  -- the initial value is +∞, the top element
  rw [val_main_cst_4_apply, Ideal.ofBits_def, ofBits_inf]
  unfold rowMin
  refine Finset.fold_congr fun (m : Fin 4097) _ => ?_
  -- (b, n) with m inserted on the last axis is (b, n, m)
  have e : reduces_d2.lift (ix2 b n) m = ix3 b n m :=
    funext fun a => Fin.ext (by match a with | ⟨0, _⟩ => rfl | ⟨1, _⟩ => rfl | ⟨2, _⟩ => rfl)
  show val_main_v17 (F := Ideal) x0 x1 (reduces_d2.lift (ix2 b n) m) = _
  rw [e, v17_apply]

/-- The reference's column minima. -/
theorem v19_apply (x0 x1 : (⟨S8x4096x3, .f32⟩ : BufTy).Contents (Elt Ideal)) (b : Fin 8) (m : Fin 4097) :
    val_main_v19 (F := Ideal) x0 x1 (ix2 b m) = colMin 4097 (cloud x0 b) (cloud x1 b) m := by
  unfold val_main_v19
  -- a minimum reduction over the middle axis is the fold of min from the initial value over that axis's coordinates
  rw [Host.reduce_eq_fold_single (FloatOps.minimumf (F := Ideal) (φ := .f32)) (val_main_v17 (F := Ideal) x0 x1)
    (val_main_cst_5 (F := Ideal)) reducesTo_S8x4097x4097_S8x4097_d1 reduces_d1 h_S_ (ix2 b m)]
  -- the initial value is +∞, the top element
  rw [val_main_cst_5_apply, Ideal.ofBits_def, ofBits_inf]
  unfold colMin
  refine Finset.fold_congr fun (n : Fin 4097) _ => ?_
  -- (b, m) with n inserted on the middle axis is (b, n, m)
  have e : reduces_d1.lift (ix2 b m) n = ix3 b n m :=
    funext fun a => Fin.ext (by match a with | ⟨0, _⟩ => rfl | ⟨1, _⟩ => rfl | ⟨2, _⟩ => rfl)
  show val_main_v17 (F := Ideal) x0 x1 (reduces_d1.lift (ix2 b m) n) = _
  rw [e, v17_apply]

end Cert.ReferenceIdeal.RefValue

end
-- ==== Proof.ChamferTail.lean ====
/-
  Sums and counts along the second axis of an [8, K] array whose columns from 4096 on are zero: the host's float
  sum from zero is the sum of the first 4096 columns, and the host's integer sum from zero of the widened
  "greater than zero" bits is the fold over the first 4096 columns (a zero column is not greater than zero and adds
  the word 0). Neither depends on K.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.Chamfer

open Idealize.ShloMosaic Idealize.ShloMosaic.ValueIdx

/-- A fold, from a neutral element `e`, of a family over `Fin K` that is `g` on its first `N` places and `e` beyond is
    the fold of `g` over `Fin N`: each place from `N` on contributes the neutral element. By induction on `K` from `N`,
    peeling the last place. -/
theorem fold_padded {α : Type} (op : α → α → α) [Std.Commutative op] [Std.Associative op] (e : α)
    (he : ∀ x, op e x = x) {N : ℕ} (g : Fin N → α) :
    ∀ (K : ℕ), N ≤ K → ∀ (f : Fin K → α), (∀ n : Fin K, f n = if h : n.val < N then g ⟨n.val, h⟩ else e) →
      (Finset.univ : Finset (Fin K)).fold op e f = (Finset.univ : Finset (Fin N)).fold op e g := by
  intro K hK
  induction K, hK using Nat.le_induction with
  | base =>
    intro f hf
    exact Finset.fold_congr fun n _ => by rw [hf n, dif_pos n.isLt]
  | succ K hK ih =>
    intro f hf
    rw [Fin.univ_castSuccEmb, Finset.fold_cons, Finset.fold_map, hf (Fin.last K),
      dif_neg (by simp only [Fin.val_last]; omega), he]
    exact ih (f ∘ Fin.castSuccEmb) fun n => by
      show f n.castSucc = _
      rw [hf]; rfl

/-- The same for a sum in any commutative additive monoid: a family over `Fin K` that is `g` on its first `N` places and
    zero beyond has the sum of `g`. -/
theorem sum_padded {M : Type} [AddCommMonoid M] {N : ℕ} (g : Fin N → M) :
    ∀ (K : ℕ), N ≤ K → ∀ (f : Fin K → M), (∀ n : Fin K, f n = if h : n.val < N then g ⟨n.val, h⟩ else 0) →
      ∑ n : Fin K, f n = ∑ n : Fin N, g n := by
  intro K hK
  induction K, hK using Nat.le_induction with
  | base =>
    intro f hf
    exact Finset.sum_congr rfl fun n _ => by rw [hf n, dif_pos n.isLt]
  | succ K hK ih =>
    intro f hf
    rw [Fin.sum_univ_castSucc, hf (Fin.last K), dif_neg (by simp only [Fin.val_last]; omega), add_zero]
    exact ih (fun n => f n.castSucc) fun n => by rw [hf]; rfl

/-- Over result row `j` of an [8, K] array reduced along its second axis, the source index with `k` on that axis is
    (row of `j`, `k`). -/
theorem lift_eq_ix2 (K : ℕ) (h : (⟨2, ![8, K]⟩ : Shape).Reduces [1] ⟨1, ![8]⟩) (j : (⟨1, ![8]⟩ : Shape).Idx) (k : Fin K) :
    h.lift j k = ix2 (n0 := 8) (n1 := K) (j 0) k := by
  funext c
  match c with
  | ⟨0, _⟩ => exact Fin.ext rfl
  | ⟨1, _⟩ => exact Fin.ext rfl

/-- The float sum along axis 1, from the zero pattern, of an array that is R on its first 4096 columns and zero
    beyond: the sum of R's row. -/
theorem reduceAdd_padded (K : ℕ) (hK : 4096 ≤ K)
    (hr : (⟨2, ![8, K]⟩ : Shape).ReducesTo [1] ⟨1, ![8]⟩) (hu : 0 < (⟨0, ![]⟩ : Shape).numel)
    (d : (⟨2, ![8, K]⟩ : Shape).Idx → EReal) (R : Fin 8 → Fin 4096 → EReal)
    (hd : ∀ (b : Fin 8) (n : Fin K), d (ix2 b n) = if h : n.val < 4096 then R b ⟨n.val, h⟩ else 0)
    (j : (⟨1, ![8]⟩ : Shape).Idx) :
    Host.reduceAdd (F := Ideal) (φ := .f32) d (constant (F := Ideal) ⟨0, ![]⟩ .f32 0x00000000#32) hr hu j
      = ∑ n : Fin 4096, R (j 0) n := by
  have h : (⟨2, ![8, K]⟩ : Shape).Reduces [1] ⟨1, ![8]⟩ := ⟨hr.1, Nat.one_pos, hr.2⟩
  rw [hostReduceAdd_apply, Ideal.hostReduceAdd_single hr h, constant_apply, Ideal.ofBits_zero_f32, zero_add]
  exact sum_padded (R (j 0)) K hK (fun k => d (h.lift j k)) fun k =>
    (congrArg d (lift_eq_ix2 K h j k)).trans (hd (j 0) k)

/-- The integer sum along axis 1, from zero, of the widened bits "entry > 0" of such an array: the fold over R's row. -/
theorem count_padded (K : ℕ) (hK : 4096 ≤ K)
    (hr : (⟨2, ![8, K]⟩ : Shape).ReducesTo [1] ⟨1, ![8]⟩) (hu : 0 < (⟨0, ![]⟩ : Shape).numel)
    (hb : (⟨0, ![]⟩ : Shape).BroadcastsInDim ⟨2, ![8, K]⟩ (![] : Fin 0 → Fin 2)) (hlt : 1 < 32)
    (d : (⟨2, ![8, K]⟩ : Shape).Idx → EReal) (R : Fin 8 → Fin 4096 → EReal)
    (hd : ∀ (b : Fin 8) (n : Fin K), d (ix2 b n) = if h : n.val < 4096 then R b ⟨n.val, h⟩ else 0)
    (j : (⟨1, ![8]⟩ : Shape).Idx) :
    Host.reduce IntOp.addi
        (extui 32 (cmpf (F := Ideal) (φ := .f32) .ogt d
          (broadcastInDim ⟨2, ![8, K]⟩ (![] : Fin 0 → Fin 2) hb (constant (F := Ideal) ⟨0, ![]⟩ .f32 0x00000000#32))) hlt)
        (constantI ⟨0, ![]⟩ 32 0#32) hr hu j
      = (Finset.univ : Finset (Fin 4096)).fold IntOp.addi 0#32
          (fun n => (FloatOps.cmpf (F := Ideal) (φ := .f32) .ogt (R (j 0) n) (Ideal.ofBits .f32 0x00000000#32)).setWidth 32) := by
  have h : (⟨2, ![8, K]⟩ : Shape).Reduces [1] ⟨1, ![8]⟩ := ⟨hr.1, Nat.one_pos, hr.2⟩
  rw [Host.reduce_eq_fold_single IntOp.addi _ _ hr h hu j]
  refine fold_padded IntOp.addi 0#32 (fun x => BitVec.zero_add x) _ K hK _ fun k => ?_
  show extui 32 _ hlt (h.lift j k) = _
  have e : d (h.lift j k) = if hk : k.val < 4096 then R (j 0) ⟨k.val, hk⟩ else 0 :=
    (congrArg d (lift_eq_ix2 K h j k)).trans (hd (j 0) k)
  rw [extui_apply, cmpf_apply, broadcastInDim_scalar_apply, constant_apply, e]
  split
  · rfl
  · rw [Ideal.ofBits_zero_f32, Ideal.cmpf_def]
    simp [Ideal.cmp]

end Cert.Chamfer

end
-- ==== Proof.Bridge.lean ====
/-
  The bridge between the two programs. After the kernel region the two output arrays hold, per batch, the nearest-
  neighbour distances of clouds padded to 4224 points; the reference computes them of clouds padded to 4097 points.
  Both are, at a true point, its distance to the nearest true point or the pad point of the other cloud, and exactly
  zero at a pad point; so per batch the float sums and the counts of positive entries of the two programs agree, and
  with them the eight scores and their mean.
-/
import proofs.«163228_j67577015435957_1_alg».proof.Proof.Gen.KernelIdeal.Frame
import proofs.«163228_j67577015435957_1_alg».proof.Proof.Gen.ReferenceIdeal.Run
import proofs.«163228_j67577015435957_1_alg».proof.Proof.Gen.ReferenceIdeal.Read
import proofs.«163228_j67577015435957_1_alg».proof.Proof.KernelInvariant
import proofs.«163228_j67577015435957_1_alg».proof.Proof.KernelArrays
import proofs.«163228_j67577015435957_1_alg».proof.Proof.KernelTail
import proofs.«163228_j67577015435957_1_alg».proof.Proof.RefValue
import proofs.«163228_j67577015435957_1_alg».proof.Proof.ChamferTail
import proofs.«163228_j67577015435957_1_alg».proof.Proof.ChamferSpec
import Idealize.ShloMosaic.Lib.Pipeline.Value
import Idealize.ShloMosaic.Lib.ValueIdx

set_option maxRecDepth 16384

noncomputable section

namespace Cert.Proof.Bridge

open Idealize.ShloMosaic Idealize.ShloMosaic.TcCoe Idealize.ShloMosaic.ValueIdx Idealize.SL.Sem
open Cert.Chamfer
open Cert.KernelIdeal Cert.KernelIdeal.Gen Cert.KernelIdeal.BlocksAt Cert.KernelIdeal.ArraysAfter Cert.KernelIdeal.TailAfter
  Cert.KernelIdeal.InvariantAt

variable (m : (ℓ : Loc nD τ sig) → Buf (Elt Ideal) ℓ)

/-- The two argument arrays on core c. -/
abbrev X0 (c : Dev nD) : S8x4096x3.Idx → EReal := m ((c : Thread nD τ).loc main_arg0)
abbrev X1 (c : Dev nD) : S8x4096x3.Idx → EReal := m ((c : Thread nD τ).loc main_arg1)

/-- True point n of batch b of the first cloud: its distance to the nearest true point or the pad point of the second. -/
def R1 (c : Dev nD) (b : Fin 8) (n : Fin 4096) : EReal := nn1 (cloud (X0 m c) b) (cloud (X1 m c) b) n
/-- The same for the second cloud's true points. -/
def R2 (c : Dev nD) (b : Fin 8) (n : Fin 4096) : EReal := nn2 (cloud (X0 m c) b) (cloud (X1 m c) b) n

/-- The first output array after the region: the row minima of the clouds padded to 4224 points. -/
theorem arr2_closed (c : Dev nD) :
    arr2 m c = fun i : S8x4224x1.Idx => rowMin 4224 (cloud (X0 m c) (i 0)) (cloud (X1 m c) (i 0)) (i 1) :=
  arr2_eq m c _ (fun t h8 n => out2_last m c t h8 n)

/-- The second output array after the region: the column minima. -/
theorem arr3_closed (c : Dev nD) :
    arr3 m c = fun i : S8x1x4224.Idx => colMin 4224 (cloud (X0 m c) (i 0)) (cloud (X1 m c) (i 0)) (i 2) :=
  arr3_eq m c _ (fun t h8 n => out3_last m c t h8 n)

/-- The first [8, 4224] array the tail computes on: the true points' distances, then zeros. -/
theorem dist1_apply (c : Dev nD) (b : Fin 8) (n : Fin 4224) :
    dist1 m c (ix2 b n) = if h : n.val < 4096 then R1 m c b ⟨n.val, h⟩ else 0 := by
  have e : dist1 m c (ix2 b n) = arr2 m c (ix3 b n 0) :=
    shapeCast_apply (arr2 m c) shapeCasts_S8x4224x1_S8x4224 (ix2 b n) (ix3 b n 0)
      (by rw [Shape.rowMajor_val_two, Shape.rowMajor_val_three]; show (b.val * 4224 + n.val) * 1 + 0 = b.val * 4224 + n.val; omega)
  rw [e, arr2_closed]
  exact rowMin_eq 4224 (by norm_num) _ _ n

theorem dist2_apply (c : Dev nD) (b : Fin 8) (n : Fin 4224) :
    dist2 m c (ix2 b n) = if h : n.val < 4096 then R2 m c b ⟨n.val, h⟩ else 0 := by
  have e : dist2 m c (ix2 b n) = arr3 m c (ix3 b 0 n) :=
    shapeCast_apply (arr3 m c) shapeCasts_S8x1x4224_S8x4224 (ix2 b n) (ix3 b 0 n)
      (by rw [Shape.rowMajor_val_two, Shape.rowMajor_val_three]; show (b.val * 1 + 0) * 4224 + n.val = b.val * 4224 + n.val; omega)
  rw [e, arr3_closed]
  exact colMin_eq 4224 (by norm_num) _ _ n

/-- The reference's first array of distances: the same true points' distances, then one zero. -/
theorem ref1_apply (c : Dev nD) (b : Fin 8) (n : Fin 4097) :
    Cert.ReferenceIdeal.Read.val_main_v18 (F := Ideal) (X0 m c) (X1 m c) (ix2 b n)
      = if h : n.val < 4096 then R1 m c b ⟨n.val, h⟩ else 0 :=
  (Cert.ReferenceIdeal.RefValue.v18_apply (X0 m c) (X1 m c) b n).trans (rowMin_eq 4097 (by norm_num) _ _ n)

theorem ref2_apply (c : Dev nD) (b : Fin 8) (n : Fin 4097) :
    Cert.ReferenceIdeal.Read.val_main_v19 (F := Ideal) (X0 m c) (X1 m c) (ix2 b n)
      = if h : n.val < 4096 then R2 m c b ⟨n.val, h⟩ else 0 :=
  (Cert.ReferenceIdeal.RefValue.v19_apply (X0 m c) (X1 m c) b n).trans (colMin_eq 4097 (by norm_num) _ _ n)

/-- One array's share of a batch's score is the same in the two programs. -/
theorem share1_eq (c : Dev nD) (j : S8.Idx) :
    share (dist1 m c) j = Cert.ReferenceIdeal.Read.val_main_v34 (F := Ideal) (X0 m c) (X1 m c) j := by
  have e1 : Host.reduceAdd (F := Ideal) (φ := .f32) (dist1 m c) (constant (F := Ideal) S_ .f32 0x00000000#32) reducesTo_S8x4224_S8_d1 h_S_ j
      = Cert.ReferenceIdeal.Read.val_main_v32 (F := Ideal) (X0 m c) (X1 m c) j :=
    (reduceAdd_padded 4224 (by norm_num) reducesTo_S8x4224_S8_d1 h_S_ (dist1 m c) (R1 m c) (dist1_apply m c) j).trans
      (reduceAdd_padded 4097 (by norm_num) Cert.ReferenceIdeal.Gen.reducesTo_S8x4097_S8_d1 Cert.ReferenceIdeal.Gen.h_S_
        (Cert.ReferenceIdeal.Read.val_main_v18 (F := Ideal) (X0 m c) (X1 m c)) (R1 m c) (ref1_apply m c) j).symm
  have e2 : Host.reduce IntOp.addi
        (extui 32 (cmpf (F := Ideal) (φ := .f32) .ogt (dist1 m c)
          (broadcastInDim S8x4224 ![] bcast_S_S8x4224 (constant (F := Ideal) S_ .f32 0x00000000#32))) natLt_1_32)
        (constantI S_ 32 0#32) reducesTo_S8x4224_S8_d1 h_S_ j
      = Cert.ReferenceIdeal.Read.val_main_v23 (F := Ideal) (X0 m c) (X1 m c) j :=
    (count_padded 4224 (by norm_num) reducesTo_S8x4224_S8_d1 h_S_ bcast_S_S8x4224 natLt_1_32 (dist1 m c) (R1 m c) (dist1_apply m c) j).trans
      (count_padded 4097 (by norm_num) Cert.ReferenceIdeal.Gen.reducesTo_S8x4097_S8_d1 Cert.ReferenceIdeal.Gen.h_S_
        Cert.ReferenceIdeal.Gen.bcast_S_S8x4097 Cert.ReferenceIdeal.Gen.natLt_1_32
        (Cert.ReferenceIdeal.Read.val_main_v18 (F := Ideal) (X0 m c) (X1 m c)) (R1 m c) (ref1_apply m c) j).symm
  rw [Cert.ReferenceIdeal.Read.val_main_v34_apply, Cert.ReferenceIdeal.Read.val_main_v33_apply,
    Cert.ReferenceIdeal.Read.val_main_v25_apply, ← e1, ← e2]
  rfl

theorem share2_eq (c : Dev nD) (j : S8.Idx) :
    share (dist2 m c) j = Cert.ReferenceIdeal.Read.val_main_v37 (F := Ideal) (X0 m c) (X1 m c) j := by
  have e1 : Host.reduceAdd (F := Ideal) (φ := .f32) (dist2 m c) (constant (F := Ideal) S_ .f32 0x00000000#32) reducesTo_S8x4224_S8_d1 h_S_ j
      = Cert.ReferenceIdeal.Read.val_main_v35 (F := Ideal) (X0 m c) (X1 m c) j :=
    (reduceAdd_padded 4224 (by norm_num) reducesTo_S8x4224_S8_d1 h_S_ (dist2 m c) (R2 m c) (dist2_apply m c) j).trans
      (reduceAdd_padded 4097 (by norm_num) Cert.ReferenceIdeal.Gen.reducesTo_S8x4097_S8_d1 Cert.ReferenceIdeal.Gen.h_S_
        (Cert.ReferenceIdeal.Read.val_main_v19 (F := Ideal) (X0 m c) (X1 m c)) (R2 m c) (ref2_apply m c) j).symm
  have e2 : Host.reduce IntOp.addi
        (extui 32 (cmpf (F := Ideal) (φ := .f32) .ogt (dist2 m c)
          (broadcastInDim S8x4224 ![] bcast_S_S8x4224 (constant (F := Ideal) S_ .f32 0x00000000#32))) natLt_1_32)
        (constantI S_ 32 0#32) reducesTo_S8x4224_S8_d1 h_S_ j
      = Cert.ReferenceIdeal.Read.val_main_v29 (F := Ideal) (X0 m c) (X1 m c) j :=
    (count_padded 4224 (by norm_num) reducesTo_S8x4224_S8_d1 h_S_ bcast_S_S8x4224 natLt_1_32 (dist2 m c) (R2 m c) (dist2_apply m c) j).trans
      (count_padded 4097 (by norm_num) Cert.ReferenceIdeal.Gen.reducesTo_S8x4097_S8_d1 Cert.ReferenceIdeal.Gen.h_S_
        Cert.ReferenceIdeal.Gen.bcast_S_S8x4097 Cert.ReferenceIdeal.Gen.natLt_1_32
        (Cert.ReferenceIdeal.Read.val_main_v19 (F := Ideal) (X0 m c) (X1 m c)) (R2 m c) (ref2_apply m c) j).symm
  rw [Cert.ReferenceIdeal.Read.val_main_v37_apply, Cert.ReferenceIdeal.Read.val_main_v36_apply,
    Cert.ReferenceIdeal.Read.val_main_v31_apply, ← e1, ← e2]
  rfl

/-- The eight scores are the same in the two programs. -/
theorem scores_eq (c : Dev nD) :
    scores (dist1 m c) (dist2 m c) = Cert.ReferenceIdeal.Read.val_main_v38 (F := Ideal) (X0 m c) (X1 m c) := by
  funext j
  exact congrArg₂ FloatOps.addf (share1_eq m c j) (share2_eq m c j)

/-- So the second result, the scores as a [1, 8] array, -/
theorem v26_eq (c : Dev nD) :
    (shapeCast S1x8 (scores (dist1 m c) (dist2 m c)) shapeCasts_S8_S1x8 : S1x8.Idx → EReal)
      = Cert.ReferenceIdeal.Read.val_main_v39 (F := Ideal) (X0 m c) (X1 m c) := by
  rw [scores_eq]; rfl

/-- and the first, their mean, are the reference's. -/
theorem v30_eq (c : Dev nD) :
    (meanOf (scores (dist1 m c) (dist2 m c)) : S_.Idx → EReal)
      = Cert.ReferenceIdeal.Read.val_main_v43 (F := Ideal) (X0 m c) (X1 m c) := by
  rw [scores_eq]; rfl

end Cert.Proof.Bridge

end
-- ==== Proof.lean ====
/-
  The Chamfer distance of two batches of point clouds, fused into one tiled kernel, against its plain reference, over
  the extended reals.

  Both programs pad each cloud of 4096 points with copies of one far point (1000, 1000, 1000), form the clipped squared
  distances |x|² + |y|² − 2⟨x, y⟩ between the points of the two padded clouds, take each point's least distance to the
  other cloud, and score a batch by the sum of those distances over the number of positive ones (at least one), added
  for the two directions; the results are the eight scores and their mean. The reference pads by ONE point, to 4097;
  the kernel pads to 4224 = 3 · 1408 points and visits the 4224 × 4224 table of a batch in 3 × 3 tiles, keeping running
  row and column minima in two scratch buffers that it resets at the batch's first tile and copies out after every tile.

  Why the two agree. (1) By induction over the grid points, after the s-th tile of a batch the scratches hold each
  row's (column's) minimum over the tiles met so far, so after the ninth they hold the full minima, which is what is
  written back. (2) A padded cloud's minima do not depend on how many copies of the pad point were appended: a true
  point's least distance is to a true point or to the pad point, and a pad point's is exactly zero — its distance to
  itself, (a + a) − 2a with a = 3 · 1000², every other distance being clipped at zero from below. (3) Columns of zeros
  add nothing to a sum and are not counted as positive, so the per-batch sums and counts over 4224 and over 4097
  entries coincide; the rest of the two programs is the same arithmetic on eight numbers.

  The frames of the two kernel programs are the generated frame certificates; the reference's frame and its result
  terms are its generated run. The idealization rewrote nothing, so the preservation claim is trivial.
-/
import proofs.«163228_j67577015435957_1_alg».proof.Defs
import proofs.«163228_j67577015435957_1_alg».proof.Proof.Gen.Kernel
import proofs.«163228_j67577015435957_1_alg».proof.Proof.Gen.Kernel.Skeleton
import proofs.«163228_j67577015435957_1_alg».proof.Proof.Gen.Kernel.Launch
import proofs.«163228_j67577015435957_1_alg».proof.Proof.Gen.Kernel.Points
import proofs.«163228_j67577015435957_1_alg».proof.Proof.Gen.Kernel.Frame
import proofs.«163228_j67577015435957_1_alg».proof.Proof.Gen.KernelIdeal
import proofs.«163228_j67577015435957_1_alg».proof.Proof.Gen.KernelIdeal.Skeleton
import proofs.«163228_j67577015435957_1_alg».proof.Proof.Gen.KernelIdeal.Launch
import proofs.«163228_j67577015435957_1_alg».proof.Proof.Gen.KernelIdeal.Points
import proofs.«163228_j67577015435957_1_alg».proof.Proof.Gen.KernelIdeal.Frame
import proofs.«163228_j67577015435957_1_alg».proof.Proof.Gen.ReferenceIdeal
import proofs.«163228_j67577015435957_1_alg».proof.Proof.Gen.ReferenceIdeal.Run
import proofs.«163228_j67577015435957_1_alg».proof.Proof.Gen.ReferenceIdeal.Read
import proofs.«163228_j67577015435957_1_alg».proof.Proof.Gen.Pre_finite_inputs
import proofs.«163228_j67577015435957_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and keeps its arguments: its generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its generated run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

section Algebraic

open Cert.KernelIdeal Cert.KernelIdeal.Gen Cert.KernelIdeal.ArraysAfter Cert.KernelIdeal.TailAfter Cert.Proof.Bridge

/-- From memories agreeing on the arguments the two idealized programs end with the same two results: the kernel's are
    the tail's terms of the two arrays of nearest-neighbour distances the region leaves, the reference's its run's
    terms, and the two are equal score by score. -/
theorem algebraic : Cert.algebraic_KernelIdeal_ReferenceIdeal := by
  intro m ρ m' ρ' _ hagree
  refine ⟨fun c => meanOf (scores (dist1 m c) (dist2 m c)),
    fun c => shapeCast S1x8 (scores (dist1 m c) (dist2 m c)) shapeCasts_S8_S1x8, ?_, ?_⟩
  · refine (θ_run Cert.KernelIdeal.defs _ _).mono (fun r h c => ⟨?_, ?_, ?_, ?_⟩) (Cert.KernelIdeal.Gen.run_main m ρ)
    · exact ((h c).2 main_v30 (Pipeline.mem_restRefs_of main_v30 (by decide) (by decide))).trans (tail_v30 m c)
    · exact ((h c).2 main_v26 (Pipeline.mem_restRefs_of main_v26 (by decide) (by decide))).trans (tail_v26 m c)
    · exact ((h c).2 main_arg0 (Pipeline.mem_restRefs_of main_arg0 (by decide) (by decide))).trans (W_main_arg0 m (dats m) c)
    · exact ((h c).2 main_arg1 (Pipeline.mem_restRefs_of main_arg1 (by decide) (by decide))).trans (W_main_arg1 m (dats m) c)
  · refine (θ_run Cert.ReferenceIdeal.defs _ _).mono
      (fun r h c => ⟨(h c).1.trans ?_, (h c).2.1.trans ?_, (h c).2.2.1, (h c).2.2.2⟩)
      (Cert.ReferenceIdeal.Value.run (F := Ideal) m' ρ')
    · rw [Cert.ReferenceIdeal.Read.val_main_v43_eq, (hagree c).1, (hagree c).2]
      exact (v30_eq m c).symm
    · rw [Cert.ReferenceIdeal.Read.val_main_v39_eq, (hagree c).1, (hagree c).2]
      exact (v26_eq m c).symm

end Algebraic

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
